-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x3x512x512 : Shape := ⟨4, ![32, 3, 512, 512]⟩
abbrev S32x512x512 : Shape := ⟨3, ![32, 512, 512]⟩
abbrev S_ : Shape := ⟨0, ![]⟩

class Facts : Prop where
  bcast_S_S32x3x512x512 : S_.BroadcastsInDim S32x3x512x512 (![] : Fin 0 → Fin S32x3x512x512.rank)
  reducesTo_S32x3x512x512_S_d0_1_2_3 : S32x3x512x512.ReducesTo [0, 1, 2, 3] S_
  h_S_ : 0 < S_.numel

variable [Facts]

def fn {F : FTy → Type} [FloatOps F] (main_arg0 : FVec F S32x3x512x512 .f32) (main_arg1 : IVec S32x512x512 32) : IVec S_ 1 :=
  let main_v0 : FVec F S32x3x512x512 .f32 := Host.absf main_arg0
  let main_cst : FVec F S_ .f32 := constant S_ .f32 0x7F800000#32
  let main_v1 : FVec F S32x3x512x512 .f32 := broadcastInDim S32x3x512x512 ![] bcast_S_S32x3x512x512 main_cst
  let main_v2 : IVec S32x3x512x512 1 := cmpf .olt main_v0 main_v1
  let main_c : IVec S_ 1 := constantI S_ 1 1#1
  let main_v3 : IVec S_ 1 := (fun x v => Host.reduce IntOp.andi x v reducesTo_S32x3x512x512_S_d0_1_2_3 h_S_) main_v2 main_c
  main_v3
-- ==== Kernel.lean ====
abbrev S32x3x512x512 : Shape := ⟨4, ![32, 3, 512, 512]⟩
abbrev S32x512x512 : Shape := ⟨3, ![32, 512, 512]⟩
abbrev S32x3x128 : Shape := ⟨3, ![32, 3, 128]⟩
abbrev S1x3x64x512 : Shape := ⟨4, ![1, 3, 64, 512]⟩
abbrev S1x64x512 : Shape := ⟨3, ![1, 64, 512]⟩
abbrev S1x3x128 : Shape := ⟨3, ![1, 3, 128]⟩
abbrev S3x128 : Shape := ⟨2, ![3, 128]⟩
abbrev S3x64x512 : Shape := ⟨3, ![3, 64, 512]⟩
abbrev S64x512 : Shape := ⟨2, ![64, 512]⟩
abbrev S64x1x512 : Shape := ⟨3, ![64, 1, 512]⟩
abbrev S64x3x512 : Shape := ⟨3, ![64, 3, 512]⟩
abbrev S64x128x512 : Shape := ⟨3, ![64, 128, 512]⟩
abbrev S64x3x128 : Shape := ⟨3, ![64, 3, 128]⟩
abbrev S_ : Shape := ⟨0, ![]⟩
abbrev S1x35 : Shape := ⟨2, ![1, 35]⟩
abbrev S35 : Shape := ⟨1, ![35]⟩

abbrev nBuf : Space → Nat
  | .hbm => 27
  | .vmem => 6
  | .smem => 0
  | _ => 0

abbrev bufTy : (tb : Table) → Fin (tcTables nBuf tb) → BufTy
  | .hbm, ⟨0, _⟩ => ⟨S32x3x512x512, .f32⟩
  | .hbm, ⟨1, _⟩ => ⟨S32x512x512, .i32⟩
  | .hbm, ⟨2, _⟩ => ⟨S32x3x128, .f32⟩
  | .hbm, ⟨3, _⟩ => ⟨S_, .f32⟩
  | .hbm, ⟨4, _⟩ => ⟨S3x128, .f32⟩
  | .hbm, ⟨5, _⟩ => ⟨S1x35, .f32⟩
  | .hbm, ⟨6, _⟩ => ⟨S35, .f32⟩
  | .hbm, ⟨7, _⟩ => ⟨S1x35, .f32⟩
  | .hbm, ⟨8, _⟩ => ⟨S35, .f32⟩
  | .hbm, ⟨9, _⟩ => ⟨S1x35, .f32⟩
  | .hbm, ⟨10, _⟩ => ⟨S35, .f32⟩
  | .hbm, ⟨11, _⟩ => ⟨S_, .f32⟩
  | .hbm, ⟨12, _⟩ => ⟨S35, .f32⟩
  | .hbm, ⟨13, _⟩ => ⟨S35, .f32⟩
  | .hbm, ⟨14, _⟩ => ⟨S_, .f32⟩
  | .hbm, ⟨15, _⟩ => ⟨S35, .f32⟩
  | .hbm, ⟨16, _⟩ => ⟨S35, .f32⟩
  | .hbm, ⟨17, _⟩ => ⟨S35, .f32⟩
  | .hbm, ⟨18, _⟩ => ⟨S35, .f32⟩
  | .hbm, ⟨19, _⟩ => ⟨S35, .f32⟩
  | .hbm, ⟨20, _⟩ => ⟨S35, .f32⟩
  | .hbm, ⟨21, _⟩ => ⟨S35, .f32⟩
  | .hbm, ⟨22, _⟩ => ⟨S_, .f32⟩
  | .hbm, ⟨23, _⟩ => ⟨S35, .f32⟩
  | .hbm, ⟨24, _⟩ => ⟨S35, .f32⟩
  | .hbm, ⟨25, _⟩ => ⟨S_, .f32⟩
  | .hbm, ⟨26, _⟩ => ⟨S_, .f32⟩
  | .local _ .vmem, ⟨0, _⟩ => ⟨S1x3x64x512, .f32⟩
  | .local _ .vmem, ⟨1, _⟩ => ⟨S1x3x64x512, .f32⟩
  | .local _ .vmem, ⟨2, _⟩ => ⟨S1x64x512, .i32⟩
  | .local _ .vmem, ⟨3, _⟩ => ⟨S1x64x512, .i32⟩
  | .local _ .vmem, ⟨4, _⟩ => ⟨S1x3x128, .f32⟩
  | .local _ .vmem, ⟨5, _⟩ => ⟨S1x3x128, .f32⟩
  | _, _ => ⟨S32x3x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![32, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x3x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x3x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  inb_S1x3x128_S1x3x128_0_0_0 : ∀ a, (![0, 0, 0] : Fin 3 → Nat) a + S1x3x128.size a ≤ S1x3x128.size a
  h_S1x3x128 : 0 < S1x3x128.numel
  shapeCasts_S1x3x128_S3x128 : S1x3x128.ShapeCasts S3x128
  shapeCasts_S3x128_S1x3x128 : S3x128.ShapeCasts S1x3x128
  inb_S1x3x64x512_S1x3x64x512_0_0_0_0 : ∀ a, (![0, 0, 0, 0] : Fin 4 → Nat) a + S1x3x64x512.size a ≤ S1x3x64x512.size a
  h_S1x3x64x512 : 0 < S1x3x64x512.numel
  shapeCasts_S1x3x64x512_S3x64x512 : S1x3x64x512.ShapeCasts S3x64x512
  reduces_S3x64x512_S64x512 : S3x64x512.Reduces [0] S64x512
  inb_S1x64x512_S1x64x512_0_0_0 : ∀ a, (![0, 0, 0] : Fin 3 → Nat) a + S1x64x512.size a ≤ S1x64x512.size a
  h_S1x64x512 : 0 < S1x64x512.numel
  shapeCasts_S1x64x512_S64x512 : S1x64x512.ShapeCasts S64x512
  shapeCasts_S64x512_S64x1x512 : S64x512.ShapeCasts S64x1x512
  concatenates_S64x1x512_S64x1x512_S64x1x512_S64x3x512_d1 : Shape.Concatenates [S64x1x512, S64x1x512, S64x1x512] S64x3x512 1
  iota_S64x128x512_d1_w32 : S64x128x512.Iotas .tc 32 [1]
  broadcasts_S64x1x512_S64x128x512 : S64x1x512.Broadcasts S64x128x512
  natLt_1_32 : 1 < 32
  reduces_S64x3x128_S3x128 : S64x3x128.Reduces [0] S3x128
  reducesTo_S32x3x128_S3x128_d0 : S32x3x128.ReducesTo [0] S3x128
  h_S_ : 0 < S_.numel
  slices_S3x128_S1x35_0_0 : S3x128.Slices ![0, 0] S1x35
  shapeCasts_S1x35_S35 : S1x35.ShapeCasts S35
  slices_S3x128_S1x35_1_0 : S3x128.Slices ![1, 0] S1x35
  slices_S3x128_S1x35_2_0 : S3x128.Slices ![2, 0] S1x35
  bcast_S_S35 : S_.BroadcastsInDim S35 (![] : Fin 0 → Fin S35.rank)
  reducesTo_S35_S_d0 : S35.ReducesTo [0] S_
  dot_S64x3x512_S64x128x512_S64x3x128_2_2_1_1_0_0_wf : DotDims.WF S64x3x512 S64x128x512 S64x3x128 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x3x64x512.size a ≤ S32x3x512x512.size a
  hwx0_0 : ∀ i : grid0.Coords, EltTy.bits .f32 = 32 ∨ (Rect.block (s := S32x3x512x512) S1x3x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x512.size a ≤ S32x512x512.size a
  hwx0_1 : ∀ i : grid0.Coords, EltTy.bits .i32 = 32 ∨ (Rect.block (s := S32x512x512) S1x64x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x3x128.size a ≤ S32x3x128.size a
  hwx0_2 : ∀ i : grid0.Coords, EltTy.bits .f32 = 32 ∨ (Rect.block (s := S32x3x128) S1x3x128.size (cc0_transform_2 i) (hinb0_2 i)).WholeWords (EltTy.packing .f32)

variable [Facts₀]

def dot_S64x3x512_S64x128x512_S64x3x128_2_2_1_1_0_0 : DotDims S64x3x512 S64x128x512 S64x3x128 where
  lhsContracting := [2]
  rhsContracting := [2]
  lhsNonContracting := [1]
  rhsNonContracting := [1]
  lhsBatch := [0]
  rhsBatch := [0]
  wf := dot_S64x3x512_S64x128x512_S64x3x128_2_2_1_1_0_0_wf

abbrev win0_0 : Pipeline.Window sig grid0 :=
  Pipeline.Window.ofSpec (Memref.whole main_arg0) S1x3x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x64x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x3x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S32x3x512x512 : Shape := ⟨4, ![32, 3, 512, 512]⟩
abbrev S32x512x512 : Shape := ⟨3, ![32, 512, 512]⟩
abbrev S_ : Shape := ⟨0, ![]⟩
abbrev S8388608 : Shape := ⟨1, ![8388608]⟩
abbrev S35 : Shape := ⟨1, ![35]⟩
abbrev S8388608x1 : Shape := ⟨2, ![8388608, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x3x512x512, .f32⟩
  | .hbm, ⟨1, _⟩ => ⟨S32x512x512, .i32⟩
  | .hbm, ⟨2, _⟩ => ⟨S_, .f32⟩
  | .hbm, ⟨3, _⟩ => ⟨S32x512x512, .f32⟩
  | .hbm, ⟨4, _⟩ => ⟨S_, .f32⟩
  | .hbm, ⟨5, _⟩ => ⟨S32x512x512, .f32⟩
  | .hbm, ⟨6, _⟩ => ⟨S32x512x512, .f32⟩
  | .hbm, ⟨7, _⟩ => ⟨S8388608, .f32⟩
  | .hbm, ⟨8, _⟩ => ⟨S8388608, .i32⟩
  | .hbm, ⟨9, _⟩ => ⟨S_, .f32⟩
  | .hbm, ⟨10, _⟩ => ⟨S35, .f32⟩
  | .hbm, ⟨11, _⟩ => ⟨S8388608x1, .i32⟩
  | .hbm, ⟨12, _⟩ => ⟨S35, .f32⟩
  | .hbm, ⟨13, _⟩ => ⟨S_, .f32⟩
  | .hbm, ⟨14, _⟩ => ⟨S8388608, .f32⟩
  | .hbm, ⟨15, _⟩ => ⟨S_, .f32⟩
  | .hbm, ⟨16, _⟩ => ⟨S35, .f32⟩
  | .hbm, ⟨17, _⟩ => ⟨S8388608x1, .i32⟩
  | .hbm, ⟨18, _⟩ => ⟨S35, .f32⟩
  | .hbm, ⟨19, _⟩ => ⟨S8388608, .f32⟩
  | .hbm, ⟨20, _⟩ => ⟨S_, .f32⟩
  | .hbm, ⟨21, _⟩ => ⟨S35, .f32⟩
  | .hbm, ⟨22, _⟩ => ⟨S8388608x1, .i32⟩
  | .hbm, ⟨23, _⟩ => ⟨S35, .f32⟩
  | .hbm, ⟨24, _⟩ => ⟨S_, .f32⟩
  | .hbm, ⟨25, _⟩ => ⟨S35, .f32⟩
  | .hbm, ⟨26, _⟩ => ⟨S35, .f32⟩
  | .hbm, ⟨27, _⟩ => ⟨S_, .f32⟩
  | .hbm, ⟨28, _⟩ => ⟨S35, .f32⟩
  | .hbm, ⟨29, _⟩ => ⟨S35, .f32⟩
  | .hbm, ⟨30, _⟩ => ⟨S35, .f32⟩
  | .hbm, ⟨31, _⟩ => ⟨S35, .f32⟩
  | .hbm, ⟨32, _⟩ => ⟨S35, .f32⟩
  | .hbm, ⟨33, _⟩ => ⟨S35, .f32⟩
  | .hbm, ⟨34, _⟩ => ⟨S35, .f32⟩
  | .hbm, ⟨35, _⟩ => ⟨S_, .f32⟩
  | .hbm, ⟨36, _⟩ => ⟨S35, .f32⟩
  | .hbm, ⟨37, _⟩ => ⟨S35, .f32⟩
  | .hbm, ⟨38, _⟩ => ⟨S_, .f32⟩
  | .hbm, ⟨39, _⟩ => ⟨S_, .f32⟩
  | _, _ => ⟨S32x3x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_4 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_cst_6 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_7 : Ref sig .tc := ⟨.hbm, 35, rfl⟩
abbrev main_v25 : Ref sig .tc := ⟨.hbm, 36, rfl⟩
abbrev main_v26 : Ref sig .tc := ⟨.hbm, 37, rfl⟩
abbrev main_cst_8 : Ref sig .tc := ⟨.hbm, 38, rfl⟩
abbrev main_v27 : Ref sig .tc := ⟨.hbm, 39, rfl⟩

abbrev nD : Nat := 1
abbrev τ : Topo := Topo.v7x

variable {F : FTy → Type} [FloatOps F]

class Facts₀ : Prop where
  reducesTo_S32x3x512x512_S32x512x512_d1 : S32x3x512x512.ReducesTo [1] S32x512x512
  h_S_ : 0 < S_.numel
  bcast_S_S32x512x512 : S_.BroadcastsInDim S32x512x512 (![] : Fin 0 → Fin S32x512x512.rank)
  shapeCasts_S32x512x512_S8388608 : S32x512x512.ShapeCasts S8388608
  bcast_S_S35 : S_.BroadcastsInDim S35 (![] : Fin 0 → Fin S35.rank)
  bcast_S8388608_S8388608x1_0 : S8388608.BroadcastsInDim S8388608x1 (![0] : Fin 1 → Fin S8388608x1.rank)
  bcast_S_S8388608 : S_.BroadcastsInDim S8388608 (![] : Fin 0 → Fin S8388608.rank)
  reducesTo_S35_S_d0 : S35.ReducesTo [0] S_
  scatter_S35_S8388608x1_S8388608_n_0_0_1_wf : ScatterDims.WF S35 S8388608x1 S8388608 [] [0] [0] 1

variable [Facts₀]

def scatter_S35_S8388608x1_S8388608_n_0_0_1 : ScatterDims S35 S8388608x1 S8388608 where
  updateWindowDims := []
  insertedWindowDims := [0]
  scatterDimsToOperandDims := [0]
  indexVectorDim := 1
  wf := scatter_S35_S8388608x1_S8388608_n_0_0_1_wf

class Facts : Prop extends Facts₀ where

variable [Facts]
-- ==== Proof.Pieces.lean ====
/-
  What one run of the kernel body leaves in the output block, as a pure function of the blocks it loads.
  At a tile that is not a batch item's first, the body stores the payload of the two input blocks and of
  the block it found; at a first tile it first stores the zero block and reads that back, so it leaves the
  payload over the zero block. Both hold at every float instance.
-/
import proofs.«427520_j62294205661754_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.Hist.Pieces

open Cert.KernelIdeal Cert.KernelIdeal.Gen

variable {F : FTy → Type} [FloatOps F]

theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- A later tile: the one whole-block store's value, its three loads reading the whole buffers. -/
theorem out_B (c : Dev nD) (i : grid0.Coords) (a2 : Memref sig .tc .vmem S1x3x64x512 .f32) (h2 : a2.IsWhole)
    (a3 : Memref sig .tc .vmem S1x64x512 .i32) (h3 : a3.IsWhole) (a4 : Memref sig .tc .vmem S1x3x128 .f32) (h4 : a4.IsWhole)
    (hc : ¬cond0_0 i) (x0 : Vec F S1x3x64x512 .f32) (x1 : Vec F S1x64x512 .i32) (xo : Vec F S1x3x128 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread,
    View.ld_unit_zero (S := S1x3x64x512) hz4, View.ld_unit_zero (S := S1x64x512) hz3,
    View.ld_unit_zero (S := S1x3x128) hz3]

/-- A first tile: the later store covers the reset, and its load of the output block reads the reset's zeros back. -/
theorem out_A (c : Dev nD) (i : grid0.Coords) (a2 : Memref sig .tc .vmem S1x3x64x512 .f32) (h2 : a2.IsWhole)
    (a3 : Memref sig .tc .vmem S1x64x512 .i32) (h3 : a3.IsWhole) (a4 : Memref sig .tc .vmem S1x3x128 .f32) (h4 : a4.IsWhole)
    (hc : cond0_0 i) (x0 : Vec F S1x3x64x512 .f32) (x1 : Vec F S1x64x512 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x3x128) hz3, View.readCov_unit_zero (S := S1x3x128) _ hz3]
  simp only [View.readAt_eq_ld, h2.read_unread, h3.read_unread,
    View.ld_unit_zero (S := S1x3x64x512) hz4, View.ld_unit_zero (S := S1x64x512) hz3,
    View.ld_unit_zero (S := S1x3x128) hz3]

end Cert.Hist.Pieces

end
-- ==== Proof.Spec.lean ====
/-
  The quantity both programs compute, stated once over the argument arrays.

  For an image batch x : [32, 3, 512, 512] and a label map y : [32, 512, 512] of 32-bit words, every pixel
  (b, r, k) carries three statistics: its channel mean μ = (x[b,0,r,k] + x[b,1,r,k] + x[b,2,r,k]) / 3, the
  constant 1, and μ². For a bin n < 35 and a statistic s, `hist x y s n` is the sum of statistic s over the
  pixels whose label word is n: the bin's sum, its pixel count and its sum of squares. The scalar result is a
  fixed arithmetic expression `tail` of these three vectors of 35 entries (the per-bin spread about the
  global-count mean, summed over the bins).
  Sums over the extended reals are sums in a commutative monoid, so the order and grouping of the pixels is free;
  a product with the indicator 0 or 1 of "the label is n" is the term itself or 0.
-/
import Idealize.ShloMosaic.PureOps.Ideal
import Idealize.ShloMosaic.PureOps.Ideal.Laws
import Idealize.ShloMosaic.PureOps.Contract
import Idealize.ShloMosaic.Lib.ValueIdx

noncomputable section

open scoped BigOperators

namespace Cert.Hist

open Idealize.ShloMosaic Idealize.ShloMosaic.ValueIdx

abbrev SX : Shape := ⟨4, ![32, 3, 512, 512]⟩
abbrev SY : Shape := ⟨3, ![32, 512, 512]⟩
abbrev SB : Shape := ⟨1, ![35]⟩
abbrev S0 : Shape := ⟨0, ![]⟩

/-- The mean of three channel values: their sum divided by the float 3. -/
def meanOf (f : Fin 3 → EReal) : EReal :=
  Ideal.div (∑ c : Fin 3, f c) (Ideal.ofBits .f32 0x40400000#32)

/-- The three statistics of a pixel with channel values `f`: the mean, the float 1, the mean's square. -/
def statOf (f : Fin 3 → EReal) (s : Fin 3) : EReal :=
  match s with
  | ⟨0, _⟩ => meanOf f
  | ⟨1, _⟩ => Ideal.ofBits .f32 0x3F800000#32
  | ⟨_ + 2, _⟩ => meanOf f * meanOf f

theorem statOf_zero (f : Fin 3 → EReal) : statOf f 0 = meanOf f := rfl
theorem statOf_one (f : Fin 3 → EReal) : statOf f 1 = Ideal.ofBits .f32 0x3F800000#32 := rfl
theorem statOf_two (f : Fin 3 → EReal) : statOf f 2 = meanOf f * meanOf f := rfl

/-- Statistic `s` of pixel (b, r, k) of the image batch. -/
def stat (x : SX.Idx → EReal) (s : Fin 3) (b : Fin 32) (r k : Fin 512) : EReal :=
  statOf (fun c => x (ix4 b c r k)) s

/-- Bin `n`'s total of statistic `s`: the sum over the pixels labelled `n`. -/
def hist (x : SX.Idx → EReal) (y : SY.Idx → BitVec 32) (s : Fin 3) (n : Fin 35) : EReal :=
  ∑ b : Fin 32, ∑ r : Fin 512, ∑ k : Fin 512,
    if y (ix3 b r k) = BitVec.ofNat 32 n.val then stat x s b r k else 0

/-- The three vectors of 35 bin totals. -/
def histVec (x : SX.Idx → EReal) (y : SY.Idx → BitVec 32) (s : Fin 3) : FVec Ideal SB .f32 :=
  fun i => hist x y s (i 0)

/-- The scalar the programs end with, from the bins' sums, counts and sums of squares: with d = sums / 2²³,
    the sum over the bins of (squares − 2·d·sums + counts·d·d) / 2²³. -/
def tail (hb : S0.BroadcastsInDim SB (![] : Fin 0 → Fin SB.rank)) (hr : SB.ReducesTo [0] S0) (h0 : 0 < S0.numel)
    (sums counts squares : FVec Ideal SB .f32) : FVec Ideal S0 .f32 :=
  Host.reduceAdd (F := Ideal)
    (Host.divf (F := Ideal)
      (addf
        (subf squares
          (mulf (mulf (broadcastInDim SB ![] hb (constant (F := Ideal) S0 .f32 0x40000000#32))
            (Host.divf (F := Ideal) sums (broadcastInDim SB ![] hb (constant (F := Ideal) S0 .f32 0x4B000000#32)))) sums))
        (mulf (mulf counts (Host.divf (F := Ideal) sums (broadcastInDim SB ![] hb (constant (F := Ideal) S0 .f32 0x4B000000#32))))
          (Host.divf (F := Ideal) sums (broadcastInDim SB ![] hb (constant (F := Ideal) S0 .f32 0x4B000000#32)))))
      (broadcastInDim SB ![] hb (constant (F := Ideal) S0 .f32 0x4B000000#32)))
    (constant (F := Ideal) S0 .f32 0x00000000#32) hr h0

/-- The result as a function of the argument arrays. -/
def result (hb : S0.BroadcastsInDim SB (![] : Fin 0 → Fin SB.rank)) (hr : SB.ReducesTo [0] S0) (h0 : 0 < S0.numel)
    (x : SX.Idx → EReal) (y : SY.Idx → BitVec 32) : FVec Ideal S0 .f32 :=
  tail hb hr h0 (histVec x y 0) (histVec x y 1) (histVec x y 2)

/-- A sum over 512 rows is the sum over 8 tiles of the sum over a tile's 64 rows. -/
theorem sum_rows_tiles {M : Type*} [AddCommMonoid M] (f : Fin 512 → M) :
    ∑ r : Fin 512, f r = ∑ h : Fin 8, ∑ q : Fin 64, f ⟨h.val * 64 + q.val, by have := h.isLt; have := q.isLt; omega⟩ := by
  rw [← Finset.sum_product', Finset.univ_product_univ]
  symm
  refine Fintype.sum_equiv (finProdFinEquiv (m := 8) (n := 64))
    (fun p : Fin 8 × Fin 64 => f ⟨p.1.val * 64 + p.2.val, by have := p.1.isLt; have := p.2.isLt; omega⟩) f
    (fun p => congrArg f (Fin.ext ?_))
  have h := finProdFinEquiv_apply_val (m := 8) (n := 64) p
  show p.1.val * 64 + p.2.val = (finProdFinEquiv (m := 8) (n := 64) p).val
  omega

end Cert.Hist

end
-- ==== Proof.Payload.lean ====
/-
  The kernel body's arithmetic at the ideal values, read at an index of the [1, 3, 128] output block.
-/
import proofs.«427520_j62294205661754_3_alg».proof.Proof.Gen.KernelIdeal.Skeleton
import proofs.«427520_j62294205661754_3_alg».proof.Proof.Spec
import Idealize.ShloMosaic.Lib.ValueIdx
import Idealize.ShloMosaic.Lib.Pipeline.Value
import Idealize.ShloMosaic.PureOps.Ideal.Laws

noncomputable section

open scoped BigOperators

namespace Cert.Hist.Payload

open Idealize.ShloMosaic Idealize.ShloMosaic.ValueIdx Cert.KernelIdeal Cert.KernelIdeal.Gen Cert.Hist

/-! ## The body's intermediate values, named

The stored value is a chain of pure operations; each link is named here so that it can be read at an index by itself:
the block without its unit axis, the channel mean, the three-row left operand (mean, one, mean squared), the one-hot
right operand, their batched product and its sum over the 64 rows of the tile. -/

/-- The dimension numbers of the product: batch axis 0 of both operands, contracted axis 2 of both, the free axes 1. -/
private abbrev D := dot_S64x3x512_S64x128x512_S64x3x128_2_2_1_1_0_0

/-- The image block with its unit axis dropped: [3, 64, 512], indexed (channel, row, lane). -/
private def x3 (v3 : Vec Ideal S1x3x64x512 .f32) : FVec Ideal S3x64x512 .f32 :=
  shapeCast S3x64x512 v3 shapeCasts_S1x3x64x512_S3x64x512

/-- The channel mean as a [64, 512] vector: the sum over the channel axis divided by the float 3. -/
private def mu (v3 : Vec Ideal S1x3x64x512 .f32) : FVec Ideal S64x512 .f32 :=
  divf (multiReduction .add [0] S64x512 (x3 v3) 0x00000000#32 reduces_S3x64x512_S64x512 (.inl rfl) rfl)
    (broadcast S64x512 (Scalar.ofBits .f32 0x40400000#32))

/-- The left operand [64, 3, 512]: along axis 1 the mean, the float 1 and the mean's square. -/
private def lhsV (v3 : Vec Ideal S1x3x64x512 .f32) : FVec Ideal S64x3x512 .f32 :=
  concatenate S64x3x512 1
    [⟨S64x1x512, shapeCast S64x1x512 (mu v3) shapeCasts_S64x512_S64x1x512⟩,
     ⟨S64x1x512, shapeCast S64x1x512 (broadcast S64x512 (Scalar.ofBits (F := Ideal) .f32 0x3F800000#32)) shapeCasts_S64x512_S64x1x512⟩,
     ⟨S64x1x512, shapeCast S64x1x512 (mulf (mu v3) (mu v3)) shapeCasts_S64x512_S64x1x512⟩]
    concatenates_S64x1x512_S64x1x512_S64x1x512_S64x3x512_d1

/-- The right operand [64, 128, 512]: at (q, n, k) the float of the bit "the label word at (q, k) is n". -/
private def onehot (v8 : Vec Ideal S1x64x512 .i32) : FVec Ideal S64x128x512 .f32 :=
  sitofp .f32 (extui 32 (cmpi .eq
    (broadcastTo S64x128x512 (shapeCast S64x1x512 (shapeCast S64x512 v8 shapeCasts_S1x64x512_S64x512) shapeCasts_S64x512_S64x1x512)
      broadcasts_S64x1x512_S64x128x512)
    (iota .tc S64x128x512 32 [1] iota_S64x128x512_d1_w32)) natLt_1_32)

/-- The batched product [64, 3, 128] into a zero accumulator. -/
private def mm (v3 : Vec Ideal S1x3x64x512 .f32) (v8 : Vec Ideal S1x64x512 .i32) : FVec Ideal S64x3x128 .f32 :=
  matmul D none (lhsV v3) (onehot v8) (constant S64x3x128 .f32 0x00000000#32)

/-- Its sum over the 64 rows: [3, 128]. -/
private def red (v3 : Vec Ideal S1x3x64x512 .f32) (v8 : Vec Ideal S1x64x512 .i32) : FVec Ideal S3x128 .f32 :=
  multiReduction .add [0] S3x128 (mm v3 v8) 0x00000000#32 reduces_S64x3x128_S3x128 (.inl rfl) rfl

/-- The stored value is the block it held plus that sum, with the unit axis put back: the chain above, link for link. -/
private theorem pay2_eq (v3 : Vec Ideal S1x3x64x512 .f32) (v8 : Vec Ideal S1x64x512 .i32) (v24 : Vec Ideal S1x3x128 .f32) :
    k0_pay2 (F := Ideal) v3 v8 v24
      = shapeCast S1x3x128 (addf (shapeCast S3x128 v24 shapeCasts_S1x3x128_S3x128) (red v3 v8)) shapeCasts_S3x128_S1x3x128 := rfl

/-! ## Each link read at an index -/

/-- Dropping the unit axis keeps the row-major position: (c, q, k) reads (0, c, q, k). -/
private theorem x3_apply (v3 : Vec Ideal S1x3x64x512 .f32) (c : Fin 3) (q : Fin 64) (k : Fin 512) :
    x3 v3 (ix3 c q k) = v3 (ix4 (0 : Fin 1) c q k) := by
  unfold x3
  refine shapeCast_apply v3 _ (ix3 c q k) (ix4 (0 : Fin 1) c q k) ?_
  rw [Shape.rowMajor_val_four, Shape.rowMajor_val_three]
  show (((0 * 3 + c.val) * 64 + q.val) * 512 + k.val) = (c.val * 64 + q.val) * 512 + k.val
  omega

/-- The mean at (q, k): the sum over the one reduced axis is the sum over the three channels, and the divisor is the
    broadcast float 3. -/
private theorem mu_apply (v3 : Vec Ideal S1x3x64x512 .f32) (q : Fin 64) (k : Fin 512) :
    mu v3 (ix2 q k) = meanOf (fun c => v3 (ix4 (0 : Fin 1) c q k)) := by
  unfold mu meanOf
  rw [divf_apply]
  refine congrArg₂ Ideal.div ?_ rfl
  refine (Ideal.multiReduction_add_single (x3 v3) 0x00000000#32 reduces_S3x64x512_S64x512 (.inl rfl) rfl (ix2 q k)).trans ?_
  show (∑ c : Fin 3, x3 v3 (reduces_S3x64x512_S64x512.lift (ix2 q k) c)) = ∑ c : Fin 3, v3 (ix4 (0 : Fin 1) c q k)
  refine Finset.sum_congr rfl fun c _ => ?_
  refine Eq.trans (congrArg (x3 v3) ?_) (x3_apply v3 c q k)
  -- the reduced index (q, k) with the channel c put back on axis 0 is (c, q, k)
  funext a
  match a with
  | ⟨0, _⟩ => exact Fin.ext rfl
  | ⟨1, _⟩ => exact Fin.ext rfl
  | ⟨2, _⟩ => exact Fin.ext rfl

/-- Inserting a unit axis in the middle keeps the row-major position: (q, 0, k) reads (q, k). -/
private theorem cast_apply (x : FVec Ideal S64x512 .f32) (q : Fin 64) (k : Fin 512) :
    shapeCast S64x1x512 x shapeCasts_S64x512_S64x1x512 (ix3 q (0 : Fin 1) k) = x (ix2 q k) := by
  refine shapeCast_apply x _ (ix3 q (0 : Fin 1) k) (ix2 q k) ?_
  rw [Shape.rowMajor_val_two, Shape.rowMajor_val_three]
  show q.val * 512 + k.val = (q.val * 1 + 0) * 512 + k.val
  omega

/-- A concatenation of three [64, 1, 512] pieces along axis 1, read at (q, s, k): piece `s` at (q, 0, k), the pieces
    before it taking up `s` positions of the axis. -/
private theorem concat3_apply (p : Fin 3 → FVec Ideal S64x1x512 .f32)
    (h : Shape.Concatenates [S64x1x512, S64x1x512, S64x1x512] S64x3x512 1) (q : Fin 64) (s : Fin 3) (k : Fin 512) :
    concatenate S64x3x512 1 [⟨S64x1x512, p 0⟩, ⟨S64x1x512, p 1⟩, ⟨S64x1x512, p 2⟩] h (ix3 q s k) = p s (ix3 q (0 : Fin 1) k) := by
  -- off the concatenated axis the piece's index has the result index's coordinates
  have hi : ∀ (t : Fin 3) (b : Fin S64x1x512.rank), b.cast (rfl : S64x1x512.rank = S64x3x512.rank) ≠ (1 : Fin 3) →
      ((ix3 q (0 : Fin 1) k : S64x1x512.Idx) b).val = ((ix3 q t k : S64x3x512.Idx) (b.cast rfl)).val := by
    intro t b hb
    match b with
    | ⟨0, _⟩ => rfl
    | ⟨1, _⟩ => exact absurd rfl hb
    | ⟨2, _⟩ => rfl
  match s with
  | ⟨0, _⟩ =>
    exact concatenate_apply_piece (t := S64x3x512) (1 : Fin 3) [⟨S64x1x512, p 0⟩, ⟨S64x1x512, p 1⟩, ⟨S64x1x512, p 2⟩] h (ix3 q (⟨0, by decide⟩ : Fin 3) k)
      0 (show 0 < 3 by decide) S64x1x512 (p 0) rfl rfl 0 rfl (ix3 q (0 : Fin 1) k) (hi _) rfl
  | ⟨1, _⟩ =>
    exact concatenate_apply_piece (t := S64x3x512) (1 : Fin 3) [⟨S64x1x512, p 0⟩, ⟨S64x1x512, p 1⟩, ⟨S64x1x512, p 2⟩] h (ix3 q (⟨1, by decide⟩ : Fin 3) k)
      1 (show 1 < 3 by decide) S64x1x512 (p 1) rfl rfl 1 rfl (ix3 q (0 : Fin 1) k) (hi _) rfl
  | ⟨2, _⟩ =>
    exact concatenate_apply_piece (t := S64x3x512) (1 : Fin 3) [⟨S64x1x512, p 0⟩, ⟨S64x1x512, p 1⟩, ⟨S64x1x512, p 2⟩] h (ix3 q (⟨2, by decide⟩ : Fin 3) k)
      2 (show 2 < 3 by decide) S64x1x512 (p 2) rfl rfl 2 rfl (ix3 q (0 : Fin 1) k) (hi _) rfl

/-- The left operand at (q, s, k) is statistic `s` of pixel (q, k). -/
private theorem lhsV_apply (v3 : Vec Ideal S1x3x64x512 .f32) (q : Fin 64) (s : Fin 3) (k : Fin 512) :
    lhsV v3 (ix3 q s k) = statOf (fun c => v3 (ix4 (0 : Fin 1) c q k)) s := by
  unfold lhsV
  refine (concat3_apply (fun t => match t with
      | ⟨0, _⟩ => shapeCast S64x1x512 (mu v3) shapeCasts_S64x512_S64x1x512
      | ⟨1, _⟩ => shapeCast S64x1x512 (broadcast S64x512 (Scalar.ofBits (F := Ideal) .f32 0x3F800000#32)) shapeCasts_S64x512_S64x1x512
      | ⟨2, _⟩ => shapeCast S64x1x512 (mulf (mu v3) (mu v3)) shapeCasts_S64x512_S64x1x512) _ q s k).trans ?_
  match s with
  | ⟨0, _⟩ => show shapeCast S64x1x512 (mu v3) shapeCasts_S64x512_S64x1x512 (ix3 q (0 : Fin 1) k) = _; rw [cast_apply, mu_apply]; rfl
  | ⟨1, _⟩ => show shapeCast S64x1x512 (broadcast S64x512 (Scalar.ofBits (F := Ideal) .f32 0x3F800000#32)) shapeCasts_S64x512_S64x1x512 (ix3 q (0 : Fin 1) k) = _; rw [cast_apply]; rfl
  | ⟨2, _⟩ => show shapeCast S64x1x512 (mulf (mu v3) (mu v3)) shapeCasts_S64x512_S64x1x512 (ix3 q (0 : Fin 1) k) = _; rw [cast_apply, mulf_apply, mu_apply]; rfl

/-- The float of a zero-extended equality bit: the bit is 1 exactly on equal words, the zero-extended word is then
    the integer 1 and otherwise 0, and the conversion reads the integer exactly. -/
private theorem sitofp_eq_bit (a b : BitVec 32) :
    FloatOps.sitofp (F := Ideal) .f32 ((IntOp.cmpi .eq a b).setWidth 32) = if a = b then 1 else 0 := by
  show (((((IntOp.cmpi .eq a b).setWidth 32).toInt : ℤ) : ℝ) : EReal) = _
  by_cases h : a = b
  · have e : (IntOp.cmpi .eq a b).setWidth 32 = 1#32 := by simp [IntOp.cmpi, h]
    rw [e, if_pos h]
    have e1 : (1#32 : BitVec 32).toInt = 1 := by decide
    rw [e1]; simp
  · have hb : (a == b) = false := beq_eq_false_iff_ne.mpr h
    have e : (IntOp.cmpi .eq a b).setWidth 32 = 0#32 := by simp [IntOp.cmpi, hb]
    rw [e, if_neg h]
    have e0 : (0#32 : BitVec 32).toInt = 0 := by decide
    rw [e0]; simp

/-- The right operand at (q, n, k) is the indicator of "the label word at (q, k) is n": the broadcast along axis 1
    reads the label at (q, k) whatever n, and the counter along axis 1 reads n. -/
private theorem onehot_apply (v8 : Vec Ideal S1x64x512 .i32) (q : Fin 64) (n : Fin 128) (k : Fin 512) :
    onehot v8 (ix3 q n k) = if v8 (ix3 (0 : Fin 1) q k) = BitVec.ofNat 32 n.val then 1 else 0 := by
  unfold onehot
  rw [sitofp_apply, extui_apply]
  show FloatOps.sitofp (F := Ideal) .f32 ((IntOp.cmpi .eq
    (broadcastTo S64x128x512 (shapeCast S64x1x512 (shapeCast S64x512 v8 shapeCasts_S1x64x512_S64x512) shapeCasts_S64x512_S64x1x512)
      broadcasts_S64x1x512_S64x128x512 (ix3 q n k))
    (iota .tc S64x128x512 32 [1] iota_S64x128x512_d1_w32 (ix3 q n k))).setWidth 32) = _
  rw [sitofp_eq_bit, iota_single_apply]
  have hb : broadcastTo S64x128x512 (shapeCast S64x1x512 (shapeCast S64x512 v8 shapeCasts_S1x64x512_S64x512) shapeCasts_S64x512_S64x1x512)
      broadcasts_S64x1x512_S64x128x512 (ix3 q n k) = v8 (ix3 (0 : Fin 1) q k) := by
    -- the broadcast reads coordinate 0 on the unit axis; the two casts keep the row-major position q * 512 + k
    refine (broadcastTo_apply _ _ (ix3 q n k) (ix3 q (0 : Fin 1) k) ?_).trans ?_
    · intro a
      match a with
      | ⟨0, _⟩ => rfl
      | ⟨1, _⟩ => rfl
      | ⟨2, _⟩ => rfl
    · refine (shapeCast_apply _ _ (ix3 q (0 : Fin 1) k) (ix2 q k) ?_).trans ?_
      · rw [Shape.rowMajor_val_two, Shape.rowMajor_val_three]
        show q.val * 512 + k.val = (q.val * 1 + 0) * 512 + k.val
        omega
      · refine shapeCast_apply v8 _ (ix2 q k) (ix3 (0 : Fin 1) q k) ?_
        rw [Shape.rowMajor_val_two, Shape.rowMajor_val_three]
        show (0 * 64 + q.val) * 512 + k.val = q.val * 512 + k.val
        omega
  rw [hb]

/-! ## The product's operand indices

At result index j = (q, s, n) and contraction position k the left operand is read at (q, s, k) and the right one at
(q, n, k): axis by axis, the batch axis 0 reads j 0, the free axes read j 1 and j 2, the contracted axes read k. -/

private theorem lhs_0 (j : S64x3x128.Idx) (k : D.contr.Idx) : (D.lhsIdx j k 0 : ℕ) = j 0 := by
  simp [DotDims.lhsIdx, D, dot_S64x3x512_S64x128x512_S64x3x128_2_2_1_1_0_0]; rfl
private theorem lhs_1 (j : S64x3x128.Idx) (k : D.contr.Idx) : (D.lhsIdx j k 1 : ℕ) = j 1 := by
  simp [DotDims.lhsIdx, D, dot_S64x3x512_S64x128x512_S64x3x128_2_2_1_1_0_0]; rfl
private theorem lhs_2 (j : S64x3x128.Idx) (k : D.contr.Idx) : (D.lhsIdx j k 2 : ℕ) = k ⟨0, by decide⟩ := by
  simp [DotDims.lhsIdx, D, dot_S64x3x512_S64x128x512_S64x3x128_2_2_1_1_0_0]; rfl
private theorem rhs_0 (j : S64x3x128.Idx) (k : D.contr.Idx) : (D.rhsIdx j k 0 : ℕ) = j 0 := by
  simp [DotDims.rhsIdx, D, dot_S64x3x512_S64x128x512_S64x3x128_2_2_1_1_0_0]; rfl
private theorem rhs_1 (j : S64x3x128.Idx) (k : D.contr.Idx) : (D.rhsIdx j k 1 : ℕ) = j 2 := by
  simp [DotDims.rhsIdx, D, dot_S64x3x512_S64x128x512_S64x3x128_2_2_1_1_0_0]; rfl
private theorem rhs_2 (j : S64x3x128.Idx) (k : D.contr.Idx) : (D.rhsIdx j k 2 : ℕ) = k ⟨0, by decide⟩ := by
  simp [DotDims.rhsIdx, D, dot_S64x3x512_S64x128x512_S64x3x128_2_2_1_1_0_0]; rfl

/-- The contraction's index set is the 512 lane positions. -/
private def cE : D.contr.Idx ≃ Fin 512 := contrEquiv1 D 512 rfl rfl

private theorem cE_symm_val (k : Fin 512) : ((cE.symm k) ⟨0, by decide⟩ : ℕ) = k.val :=
  contrEquiv1_symm_val D 512 rfl rfl k

private theorem lhsIdx_eq (q : Fin 64) (s : Fin 3) (n : Fin 128) (k : Fin 512) :
    D.lhsIdx (ix3 q s n) (cE.symm k) = ix3 q s k := by
  funext a
  match a with
  | ⟨0, _⟩ => exact Fin.ext (lhs_0 _ _)
  | ⟨1, _⟩ => exact Fin.ext (lhs_1 _ _)
  | ⟨2, _⟩ => exact Fin.ext ((lhs_2 _ _).trans (cE_symm_val k))

private theorem rhsIdx_eq (q : Fin 64) (s : Fin 3) (n : Fin 128) (k : Fin 512) :
    D.rhsIdx (ix3 q s n) (cE.symm k) = ix3 q n k := by
  funext a
  match a with
  | ⟨0, _⟩ => exact Fin.ext (rhs_0 _ _)
  | ⟨1, _⟩ => exact Fin.ext (rhs_1 _ _)
  | ⟨2, _⟩ => exact Fin.ext ((rhs_2 _ _).trans (cE_symm_val k))

/-- The product at (q, s, n): into the zero accumulator it is the sum over the contraction, re-indexed by lane. -/
private theorem mm_apply (v3 : Vec Ideal S1x3x64x512 .f32) (v8 : Vec Ideal S1x64x512 .i32) (q : Fin 64) (s : Fin 3) (n : Fin 128) :
    mm v3 v8 (ix3 q s n) = ∑ k : Fin 512, lhsV v3 (ix3 q s k) * onehot v8 (ix3 q n k) := by
  unfold mm
  refine (Ideal.matmul_constant_zero_apply D none (lhsV v3) (onehot v8) (ix3 q s n)).trans ?_
  rw [← Equiv.sum_comp cE.symm]
  refine Finset.sum_congr rfl fun k _ => ?_
  rw [lhsIdx_eq, rhsIdx_eq]

/-- The sum over the rows at (s, n): the reduced index with the row q put back on axis 0 is (q, s, n). -/
private theorem red_apply (v3 : Vec Ideal S1x3x64x512 .f32) (v8 : Vec Ideal S1x64x512 .i32) (s : Fin 3) (n : Fin 128) :
    red v3 v8 (ix2 s n) = ∑ q : Fin 64, mm v3 v8 (ix3 q s n) := by
  unfold red
  refine (Ideal.multiReduction_add_single (mm v3 v8) 0x00000000#32 reduces_S64x3x128_S3x128 (.inl rfl) rfl (ix2 s n)).trans ?_
  show (∑ q : Fin 64, mm v3 v8 (reduces_S64x3x128_S3x128.lift (ix2 s n) q)) = ∑ q : Fin 64, mm v3 v8 (ix3 q s n)
  refine Finset.sum_congr rfl fun q _ => congrArg (mm v3 v8) ?_
  funext a
  match a with
  | ⟨0, _⟩ => exact Fin.ext rfl
  | ⟨1, _⟩ => exact Fin.ext rfl
  | ⟨2, _⟩ => exact Fin.ext rfl

/-! ## The two stored blocks at an index -/

/-- The block the reset stores is zero everywhere. -/
theorem pay1_apply (j : S1x3x128.Idx) : (k0_pay1 (F := Ideal)) j = 0 := by
  -- a cast of a broadcast reads the broadcast scalar, the float whose word is zero
  show Ideal.ofBits .f32 0x00000000#32 = 0
  exact Ideal.ofBits_zero_f32

/-- Entry (s, n) of the block the body stores: what the block held, plus the sum of statistic `s` over the tile's
    64 × 512 pixels whose label word is `n`. -/
theorem pay2_apply (v3 : Vec Ideal S1x3x64x512 .f32) (v8 : Vec Ideal S1x64x512 .i32) (v24 : Vec Ideal S1x3x128 .f32)
    (s : Fin 3) (n : Fin 128) :
    k0_pay2 (F := Ideal) v3 v8 v24 (ix3 (0 : Fin 1) s n)
      = v24 (ix3 (0 : Fin 1) s n)
        + ∑ q : Fin 64, ∑ k : Fin 512,
            if v8 (ix3 (0 : Fin 1) q k) = BitVec.ofNat 32 n.val
            then statOf (fun c => v3 (ix4 (0 : Fin 1) c q k)) s else 0 := by
  rw [pay2_eq]
  -- the outer cast and the cast of the held block keep the row-major position s * 128 + n
  refine (shapeCast_apply _ _ (ix3 (0 : Fin 1) s n) (ix2 s n) ?_).trans ?_
  · rw [Shape.rowMajor_val_two, Shape.rowMajor_val_three]
    show s.val * 128 + n.val = (0 * 3 + s.val) * 128 + n.val
    omega
  rw [addf_apply]
  refine congrArg₂ (· + ·) ?_ ?_
  · refine shapeCast_apply v24 _ (ix2 s n) (ix3 (0 : Fin 1) s n) ?_
    rw [Shape.rowMajor_val_two, Shape.rowMajor_val_three]
    show (0 * 3 + s.val) * 128 + n.val = s.val * 128 + n.val
    omega
  · -- a product with the indicator 1 or 0 is the term itself or 0
    rw [red_apply]
    refine Finset.sum_congr rfl fun q _ => ?_
    rw [mm_apply]
    refine Finset.sum_congr rfl fun k _ => ?_
    rw [lhsV_apply, onehot_apply, mul_ite, mul_one, mul_zero]

end Cert.Hist.Payload

end
-- ==== Proof.Accum.lean ====
/-
  What the output block holds after each grid point, at the ideal values.

  The grid runs over 32 batch items and, inside each, 8 tiles of 64 rows: point t is tile t mod 8 of item
  t div 8. The input blocks at point t are rows 64·(t mod 8) … 64·(t mod 8) + 63 of item t div 8. After point
  t the output block's entry (s, n) is the sum, over the tiles 0 … t mod 8 of item t div 8, of statistic s over
  the tile's pixels labelled n: the first tile starts from the zero block, every later one adds to what the
  tile before left.
-/
import proofs.«427520_j62294205661754_3_alg».proof.Proof.Pieces
import proofs.«427520_j62294205661754_3_alg».proof.Proof.Payload
import proofs.«427520_j62294205661754_3_alg».proof.Proof.Spec
import Idealize.ShloMosaic.Lib.Pipeline.Value
import Idealize.ShloMosaic.Lib.ValueIdx

noncomputable section

open scoped BigOperators

open Idealize.ShloMosaic Idealize.ShloMosaic.TcCoe Idealize.SL.Sem Idealize.ShloMosaic.ValueIdx
open Idealize.ShloMosaic.Pipeline (Dat)

namespace Cert.Hist

/-- Tile `h` of batch item `b`: the sum of statistic `s` over the tile's 64 × 512 pixels labelled `n`. -/
def tile (x : SX.Idx → EReal) (y : SY.Idx → BitVec 32) (s : Fin 3) (n : Fin 128) (b : Fin 32) (h : Fin 8) : EReal :=
  ∑ q : Fin 64, ∑ k : Fin 512,
    if y (ix3 b (⟨h.val * 64 + q.val, by have := h.isLt; have := q.isLt; omega⟩ : Fin 512) k) = BitVec.ofNat 32 n.val
    then stat x s b (⟨h.val * 64 + q.val, by have := h.isLt; have := q.isLt; omega⟩ : Fin 512) k else 0

/-- Tile number `i`, zero past the eighth. -/
def tileN (x : SX.Idx → EReal) (y : SY.Idx → BitVec 32) (s : Fin 3) (n : Fin 128) (b : Fin 32) (i : ℕ) : EReal :=
  if hi : i < 8 then tile x y s n b ⟨i, hi⟩ else 0

/-- The running total after tile `j`: tiles 0 … j. -/
def upTo (x : SX.Idx → EReal) (y : SY.Idx → BitVec 32) (s : Fin 3) (n : Fin 128) (b : Fin 32) (j : ℕ) : EReal :=
  ∑ i ∈ Finset.range (j + 1), tileN x y s n b i

theorem upTo_zero (x : SX.Idx → EReal) (y : SY.Idx → BitVec 32) (s : Fin 3) (n : Fin 128) (b : Fin 32) :
    upTo x y s n b 0 = tile x y s n b 0 := by
  unfold upTo
  rw [Finset.sum_range_one]
  rfl

theorem upTo_succ (x : SX.Idx → EReal) (y : SY.Idx → BitVec 32) (s : Fin 3) (n : Fin 128) (b : Fin 32) (j : ℕ) :
    upTo x y s n b (j + 1) = upTo x y s n b j + tileN x y s n b (j + 1) := by
  unfold upTo
  exact Finset.sum_range_succ _ _

/-- After the eighth tile the running total is the sum of all eight. -/
theorem upTo_seven (x : SX.Idx → EReal) (y : SY.Idx → BitVec 32) (s : Fin 3) (n : Fin 128) (b : Fin 32) :
    upTo x y s n b 7 = ∑ h : Fin 8, tile x y s n b h := by
  unfold upTo
  rw [← Fin.sum_univ_eq_sum_range (fun i => tileN x y s n b i) 8]
  exact Finset.sum_congr rfl fun h _ => dif_pos h.isLt

/-- A running total at a tile number known to be 0 is the first tile. -/
theorem upTo_of_eq_zero (x : SX.Idx → EReal) (y : SY.Idx → BitVec 32) (s : Fin 3) (n : Fin 128) (b : Fin 32)
    (j : ℕ) (hj : j = 0) (hj8 : j < 8) : upTo x y s n b j = tile x y s n b ⟨j, hj8⟩ := by
  subst hj
  exact upTo_zero x y s n b

/-- A running total at a later tile is the total before it plus that tile. -/
theorem upTo_pred (x : SX.Idx → EReal) (y : SY.Idx → BitVec 32) (s : Fin 3) (n : Fin 128) (b : Fin 32)
    (j : ℕ) (hj : j ≠ 0) (hj8 : j < 8) : upTo x y s n b j = upTo x y s n b (j - 1) + tile x y s n b ⟨j, hj8⟩ := by
  obtain ⟨j', rfl⟩ : ∃ j', j = j' + 1 := ⟨j - 1, by omega⟩
  rw [upTo_succ, Nat.add_sub_cancel]
  unfold tileN
  rw [dif_pos hj8]

namespace Accum

open Cert.KernelIdeal Cert.KernelIdeal.Gen

variable (m : (ℓ : Loc nD τ sig) → Buf (Elt Ideal) ℓ)

/-- The two argument arrays as the region finds them, and the two input blocks at a point, at their literal types. -/
abbrev xarr (c : Dev nD) : Vec Ideal S32x3x512x512 .f32 := V m c main_arg0
abbrev yarr (c : Dev nD) : Vec Ideal S32x512x512 .i32 := V m c main_arg1
abbrev xblk (c : Dev nD) (t : Fin cfg0.N) : Vec Ideal S1x3x64x512 .f32 := iblk m c 0 t
abbrev yblk (c : Dev nD) (t : Fin cfg0.N) : Vec Ideal S1x64x512 .i32 := iblk m c 1 t

/-- Where the three windows' blocks sit at point `t`: item t div 8, tile t mod 8 — decided over the 256 points. -/
theorem idx_facts : ∀ t : Fin cfg0.N,
    win0_0.index t 0 = t.val / 8 ∧ win0_0.index t 1 = 0 ∧ win0_0.index t 2 = t.val % 8 ∧ win0_0.index t 3 = 0
    ∧ win0_1.index t 0 = t.val / 8 ∧ win0_1.index t 1 = t.val % 8 ∧ win0_1.index t 2 = 0
    ∧ win0_2.index t 0 = t.val / 8 ∧ win0_2.index t 1 = 0 ∧ win0_2.index t 2 = 0 :=
  (by decide +kernel : ∀ t : Fin grid0.N,
    win0_0.index t 0 = t.val / 8 ∧ win0_0.index t 1 = 0 ∧ win0_0.index t 2 = t.val % 8 ∧ win0_0.index t 3 = 0
    ∧ win0_1.index t 0 = t.val / 8 ∧ win0_1.index t 1 = t.val % 8 ∧ win0_1.index t 2 = 0
    ∧ win0_2.index t 0 = t.val / 8 ∧ win0_2.index t 1 = 0 ∧ win0_2.index t 2 = 0)

theorem lt_N (t : Fin cfg0.N) : t.val < 256 := lt_of_lt_of_eq t.isLt (show cfg0.N = 256 from N_0)

/-- The image block at point `t`, read at (channel, row q, column k): the array at item t div 8, row 64·(t mod 8) + q. -/
theorem xblk_apply (c : Dev nD) (t : Fin cfg0.N) (ch : Fin 3) (q : Fin 64) (k : Fin 512) :
    xblk m c t (ix4 (0 : Fin 1) ch q k)
      = xarr m c (ix4 (⟨t.val / 8, by have := lt_N t; omega⟩ : Fin 32) ch
          (⟨t.val % 8 * 64 + q.val, by have := q.isLt; omega⟩ : Fin 512) k) := by
  have hi := idx_facts t
  unfold xblk iblk
  rw [View.read_apply]
  show V m c main_arg0 _ = V m c main_arg0 _
  congr 1
  funext a
  apply Fin.ext
  match a with
  | ⟨0, _⟩ => show win0_0.index t 0 * 1 + 1 * 0 = t.val / 8; rw [hi.1]; omega
  | ⟨1, _⟩ => show win0_0.index t 1 * 3 + 1 * ch.val = ch.val; rw [hi.2.1]; omega
  | ⟨2, _⟩ => show win0_0.index t 2 * 64 + 1 * q.val = t.val % 8 * 64 + q.val; rw [hi.2.2.1]; omega
  | ⟨3, _⟩ => show win0_0.index t 3 * 512 + 1 * k.val = k.val; rw [hi.2.2.2.1]; omega

/-- The label block at point `t`, read at (row q, column k). -/
theorem yblk_apply (c : Dev nD) (t : Fin cfg0.N) (q : Fin 64) (k : Fin 512) :
    yblk m c t (ix3 (0 : Fin 1) q k)
      = yarr m c (ix3 (⟨t.val / 8, by have := lt_N t; omega⟩ : Fin 32)
          (⟨t.val % 8 * 64 + q.val, by have := q.isLt; omega⟩ : Fin 512) k) := by
  have hi := idx_facts t
  unfold yblk iblk
  rw [View.read_apply]
  show V m c main_arg1 _ = V m c main_arg1 _
  congr 1
  funext a
  apply Fin.ext
  match a with
  | ⟨0, _⟩ => show win0_1.index t 0 * 1 + 1 * 0 = t.val / 8; rw [hi.2.2.2.2.1]; omega
  | ⟨1, _⟩ => show win0_1.index t 1 * 64 + 1 * q.val = t.val % 8 * 64 + q.val; rw [hi.2.2.2.2.2.1]; omega
  | ⟨2, _⟩ => show win0_1.index t 2 * 512 + 1 * k.val = k.val; rw [hi.2.2.2.2.2.2.1]; omega

/-- The body's sum over the blocks at point `t` is the tile t mod 8 of item t div 8 of the arrays. -/
theorem block_sum (c : Dev nD) (t : Fin cfg0.N) (s : Fin 3) (n : Fin 128) :
    (∑ q : Fin 64, ∑ k : Fin 512,
        if yblk m c t (ix3 (0 : Fin 1) q k) = BitVec.ofNat 32 n.val
        then statOf (fun ch => xblk m c t (ix4 (0 : Fin 1) ch q k)) s else 0)
      = tile (xarr m c) (yarr m c) s n (⟨t.val / 8, by have := lt_N t; omega⟩ : Fin 32)
          (⟨t.val % 8, Nat.mod_lt _ (by decide)⟩ : Fin 8) := by
  unfold tile stat
  refine Finset.sum_congr rfl fun q _ => Finset.sum_congr rfl fun k _ => ?_
  simp only [xblk_apply, yblk_apply]

/-- A first tile: the payload over the zero block. -/
theorem step_A (c : Dev nD) (t : Fin cfg0.N) (h0 : t.val % 8 = 0) (s : Fin 3) (n : Fin 128) :
    (outsAt0 m c t.val t.isLt : Vec Ideal S1x3x128 .f32) (ix3 (0 : Fin 1) s n)
      = upTo (xarr m c) (yarr m c) s n (⟨t.val / 8, by have := lt_N t; omega⟩ : Fin 32) (t.val % 8) := by
  refine (congrFun (outsAt0_A m c t h0) (ix3 (0 : Fin 1) s n)).trans ?_
  refine (congrFun (Pieces.out_A c (grid0.coords t) (ms0_0 t) (hs0_0 t) (ms0_1 t) (hs0_1 t) (ms0_2 t) (hs0_2 t)
    ((hcond0_0 t).mpr h0) (xblk m c t) (yblk m c t)) (ix3 (0 : Fin 1) s n)).trans ?_
  refine (Payload.pay2_apply (xblk m c t) (yblk m c t) (k0_pay1 (F := Ideal)) s n).trans ?_
  rw [Payload.pay1_apply, zero_add, block_sum]
  exact (upTo_of_eq_zero _ _ s n _ (t.val % 8) h0 (Nat.mod_lt _ (by decide))).symm

/-- A later tile: the payload over what the tile before left. -/
theorem step_B (c : Dev nD) (t : Fin cfg0.N) (h0 : ¬t.val % 8 = 0) (s : Fin 3) (n : Fin 128)
    (ih : ∀ h', (outsAt0 m c (t.val - 1) h' : Vec Ideal S1x3x128 .f32) (ix3 (0 : Fin 1) s n)
      = upTo (xarr m c) (yarr m c) s n (⟨(t.val - 1) / 8, by have := lt_N t; omega⟩ : Fin 32) ((t.val - 1) % 8)) :
    (outsAt0 m c t.val t.isLt : Vec Ideal S1x3x128 .f32) (ix3 (0 : Fin 1) s n)
      = upTo (xarr m c) (yarr m c) s n (⟨t.val / 8, by have := lt_N t; omega⟩ : Fin 32) (t.val % 8) := by
  refine (congrFun (outsAt0_B m c t h0) (ix3 (0 : Fin 1) s n)).trans ?_
  refine (congrFun (Pieces.out_B c (grid0.coords t) (ms0_0 t) (hs0_0 t) (ms0_1 t) (hs0_1 t) (ms0_2 t) (hs0_2 t)
    (fun h => h0 ((hcond0_0 t).mp h)) (xblk m c t) (yblk m c t)
    (outsAt0 m c (t.val - 1) (Nat.lt_of_le_of_lt (Nat.sub_le _ _) t.isLt))) (ix3 (0 : Fin 1) s n)).trans ?_
  refine (Payload.pay2_apply (xblk m c t) (yblk m c t)
    (outsAt0 m c (t.val - 1) (Nat.lt_of_le_of_lt (Nat.sub_le _ _) t.isLt)) s n).trans ?_
  rw [ih, block_sum, upTo_pred _ _ s n _ (t.val % 8) h0 (Nat.mod_lt _ (by decide))]
  have e1 : (⟨(t.val - 1) / 8, by have := lt_N t; omega⟩ : Fin 32) = ⟨t.val / 8, by have := lt_N t; omega⟩ :=
    Fin.ext (by show (t.val - 1) / 8 = t.val / 8; omega)
  have e2 : (t.val - 1) % 8 = t.val % 8 - 1 := by omega
  rw [e1, e2]

/-- After point `t` the output block's entry (s, n) is the running total of item t div 8 after tile t mod 8. -/
theorem outsAt_apply (c : Dev nD) (s : Fin 3) (n : Fin 128) : ∀ (t : ℕ) (ht : t < cfg0.N),
    (outsAt0 m c t ht : Vec Ideal S1x3x128 .f32) (ix3 (0 : Fin 1) s n)
      = upTo (xarr m c) (yarr m c) s n
          (⟨t / 8, by have := lt_of_lt_of_eq ht (show cfg0.N = 256 from N_0); omega⟩ : Fin 32) (t % 8) := by
  intro t
  induction t with
  | zero => intro ht; exact step_A m c ⟨0, ht⟩ rfl s n
  | succ t ih =>
    intro ht
    by_cases h0 : (t + 1) % 8 = 0
    · exact step_A m c ⟨t + 1, ht⟩ h0 s n
    · exact step_B m c ⟨t + 1, ht⟩ h0 s n (fun h' => ih h')

end Accum

end Cert.Hist

end
-- ==== Proof.KTail.lean ====
/-
  The host operations after the kernel's region, as one function of the region's result array [32, 3, 128]:
  the sum over the 32 batch blocks, the three rows cut to their first 35 lanes, and the shared scalar expression.
-/
import proofs.«427520_j62294205661754_3_alg».proof.KernelIdeal
import proofs.«427520_j62294205661754_3_alg».proof.Proof.Gen.KernelIdeal
import proofs.«427520_j62294205661754_3_alg».proof.Proof.Spec
import Idealize.ShloMosaic.Lib.ValueIdx
import Idealize.ShloMosaic.Lib.Pipeline.Value
import Idealize.ShloMosaic.PureOps.Ideal.Laws

noncomputable section

open scoped BigOperators

namespace Cert.Hist.KTail

open Idealize.ShloMosaic Idealize.ShloMosaic.ValueIdx Cert.KernelIdeal Cert.Hist
open Cert.KernelIdeal.Facts₀

/-- Row `s` of the batch-summed array, cut to the 35 bins: the slice [s : s+1, 0 : 35] reshaped to a vector. -/
def row (hs : S3x128.Slices ![0, 0] S1x35) (off : Fin 2 → Nat) (h : S3x128.Slices off S1x35)
    (A : FVec Ideal S32x3x128 .f32) : FVec Ideal S35 .f32 :=
  shapeCast S35 (extractStridedSlice S1x35 off
    (Host.reduceAdd (F := Ideal) A (constant (F := Ideal) S_ .f32 0x00000000#32) reducesTo_S32x3x128_S3x128_d0 h_S_) h)
    shapeCasts_S1x35_S35

/-- The operations after the region, composed, as a function of the region's result array. -/
def ktail (A : FVec Ideal S32x3x128 .f32) : FVec Ideal S_ .f32 :=
  Hist.tail bcast_S_S35 reducesTo_S35_S_d0 h_S_
    (row slices_S3x128_S1x35_0_0 ![0, 0] slices_S3x128_S1x35_0_0 A)
    (row slices_S3x128_S1x35_0_0 ![1, 0] slices_S3x128_S1x35_1_0 A)
    (row slices_S3x128_S1x35_0_0 ![2, 0] slices_S3x128_S1x35_2_0 A)

/-- Bin `n`'s total of row `s` over the batch: the float zero plus the sum over the 32 blocks. -/
def binSum (A : FVec Ideal S32x3x128 .f32) (s : Fin 3) : FVec Ideal Hist.SB .f32 :=
  fun i => Ideal.ofBits .f32 0x00000000#32
    + ∑ b : Fin 32, A (ix3 b s ⟨(i 0).val, by have h : (i 0).val < 35 := (i 0).isLt; omega⟩)

/-- The batch sum read at (s, n): the float zero plus the sum over the 32 blocks of the entry (b, s, n).
    The host sum over axis 0 is the initial value plus the sum over that axis; the inserted index has
    coordinates (b, s, n). -/
private theorem sum_apply (A : FVec Ideal S32x3x128 .f32) (s : Fin 3) (n : Fin 128) :
    Host.reduceAdd (F := Ideal) A (constant (F := Ideal) S_ .f32 0x00000000#32) reducesTo_S32x3x128_S3x128_d0 h_S_ (ix2 s n)
      = Ideal.ofBits .f32 0x00000000#32 + ∑ b : Fin 32, A (ix3 b s n) := by
  have hR : S32x3x128.Reduces [0] S3x128 := by decide
  show Ideal.hostReduceAdd reducesTo_S32x3x128_S3x128_d0 A (Ideal.ofBits .f32 0x00000000#32) (ix2 s n) = _
  refine (Ideal.hostReduceAdd_single reducesTo_S32x3x128_S3x128_d0 hR A _ (ix2 s n)).trans ?_
  refine congrArg (Ideal.ofBits .f32 0x00000000#32 + ·) (Finset.sum_congr rfl fun b _ => congrArg A ?_)
  funext a
  match a with
  | ⟨0, _⟩ => rfl
  | ⟨1, _⟩ => rfl
  | ⟨2, _⟩ => rfl

/-- Row `s` cut to its first 35 lanes and flattened, read at bin `n`: the batch sum at (s, n).
    The flattening [1, 35] → [35] keeps the row-major position 0 · 35 + n = n; the slice at offsets (s, 0)
    reads the source at (s + 0, 0 + n). -/
private theorem row_eq (s : Fin 3) (hs : S3x128.Slices ![0, 0] S1x35) (h : S3x128.Slices ![s.val, 0] S1x35)
    (A : FVec Ideal S32x3x128 .f32) : row hs ![s.val, 0] h A = binSum A s := by
  funext i
  have hn : (i 0).val < 35 := (i 0).isLt
  unfold row binSum
  refine (shapeCast_apply _ shapeCasts_S1x35_S35 i (ix2 (0 : Fin 1) (⟨(i 0).val, hn⟩ : Fin 35)) ?_).trans ?_
  · rw [Shape.rowMajor_val_two, Shape.rowMajor_val_one]
    show (0 : Nat) * 35 + (i 0).val = (i 0).val
    omega
  refine (extractStridedSlice_apply ![s.val, 0] _ h (ix2 (0 : Fin 1) (⟨(i 0).val, hn⟩ : Fin 35))
    (ix2 s (⟨(i 0).val, by omega⟩ : Fin 128)) ?_).trans ?_
  · intro a
    match a with
    | ⟨0, _⟩ => rfl
    | ⟨1, _⟩ => exact (Nat.zero_add _).symm
  exact sum_apply A s _

theorem row0_eq (A : FVec Ideal S32x3x128 .f32) :
    row slices_S3x128_S1x35_0_0 ![0, 0] slices_S3x128_S1x35_0_0 A = binSum A 0 := by
  exact row_eq 0 slices_S3x128_S1x35_0_0 slices_S3x128_S1x35_0_0 A

theorem row1_eq (A : FVec Ideal S32x3x128 .f32) :
    row slices_S3x128_S1x35_0_0 ![1, 0] slices_S3x128_S1x35_1_0 A = binSum A 1 := by
  exact row_eq 1 slices_S3x128_S1x35_0_0 slices_S3x128_S1x35_1_0 A

theorem row2_eq (A : FVec Ideal S32x3x128 .f32) :
    row slices_S3x128_S1x35_0_0 ![2, 0] slices_S3x128_S1x35_2_0 A = binSum A 2 := by
  exact row_eq 2 slices_S3x128_S1x35_0_0 slices_S3x128_S1x35_2_0 A

/-- The tail of the kernel's program is the shared scalar expression of the three batch-summed rows. -/
theorem ktail_eq (A : FVec Ideal S32x3x128 .f32) :
    ktail A = Hist.tail bcast_S_S35 reducesTo_S35_S_d0 h_S_ (binSum A 0) (binSum A 1) (binSum A 2) := by
  unfold ktail
  rw [row0_eq, row1_eq, row2_eq]

end Cert.Hist.KTail

end
-- ==== Proof.KValue.lean ====
/-
  The kernel's program at the ideal values: its result is the specification's function of the argument arrays.

  The output array [32, 3, 128] has one block per batch item, written back after the item's eighth tile, when
  the block holds the item's total over all eight tiles; the 32 blocks tile the array. The host operations after
  the region sum the blocks over the batch, cut the three rows to the 35 bins and apply the shared scalar
  expression. A bin's total over the batch, the tiles of an item, a tile's rows and the columns is its total over
  all pixels, since a sum over 512 rows is the sum over 8 tiles of 64 rows.
-/
import proofs.«427520_j62294205661754_3_alg».proof.Proof.Accum
import proofs.«427520_j62294205661754_3_alg».proof.Proof.KTail
import Idealize.ShloMosaic.Lib.Pipeline.Value
import Idealize.ShloMosaic.Lib.StableHlo.Run
import Idealize.ShloMosaic.Lib.Tactic

noncomputable section

open scoped BigOperators

open Idealize.ShloMosaic Idealize.ShloMosaic.TcCoe Idealize.SL.Sem Idealize.ShloMosaic.ValueIdx
open Idealize.ShloMosaic.Pipeline (Dat)

namespace Cert.Hist.KValue

open Cert.KernelIdeal Cert.KernelIdeal.Gen Cert.Hist Cert.Hist.Accum

variable (m : (ℓ : Loc nD τ sig) → Buf (Elt Ideal) ℓ) (ρ : Dev nD → PrngReg)

/-- The region's result array: entry (b, s, n) is item b's total of statistic s at label n over its eight tiles. -/
def accArr (x : SX.Idx → EReal) (y : SY.Idx → BitVec 32) : FVec Ideal S32x3x128 .f32 :=
  fun j => upTo x y (j 1) (j 2) (j 0) 7

theorem accArr_apply (x : SX.Idx → EReal) (y : SY.Idx → BitVec 32) (b : Fin 32) (s : Fin 3) (n : Fin 128) :
    accArr x y (ix3 b s n) = upTo x y s n b 7 := rfl

/-- Where point `t`'s output block sits: entry (0, s, n) of the block is entry (t div 8, s, n) of the array. -/
theorem emb_out (t : Fin cfg0.N) (s : Fin 3) (n : Fin 128) :
    ((cfg0.win 2).blk t).view.emb (ix3 (0 : Fin 1) s n)
      = ix3 (⟨t.val / 8, by have := lt_N t; omega⟩ : Fin 32) s n := by
  have hi := idx_facts t
  funext a
  apply Fin.ext
  match a with
  | ⟨0, _⟩ => show win0_2.index t 0 * 1 + 1 * 0 = t.val / 8; rw [hi.2.2.2.2.2.2.2.1]; omega
  | ⟨1, _⟩ => show win0_2.index t 1 * 3 + 1 * s.val = s.val; rw [hi.2.2.2.2.2.2.2.2.1]; omega
  | ⟨2, _⟩ => show win0_2.index t 2 * 128 + 1 * n.val = n.val; rw [hi.2.2.2.2.2.2.2.2.2]; omega

/-- What a writing-back point writes: its block of the result array. Such a point is an item's eighth tile. -/
theorem flushed_eq (c : Dev nD) (t : Fin cfg0.N) (hf : (cfg0.win 2).flush t = true) :
    (dats m 0 c).flushed 2 t
      = ((cfg0.win 2).blk t).view.read (Elt Ideal) (accArr (xarr m c) (yarr m c)) := by
  have h7 : t.val % 8 = 7 := (flush0_2 t).mp hf
  show (cfg0.win 2).cut (grid0.coords t) ((dats m 0 c).after 2 t) = _
  rw [after0_2]
  funext j
  obtain ⟨z, s, n, rfl⟩ : ∃ (z : Fin 1) (s : Fin 3) (n : Fin 128), j = ix3 z s n := ⟨j 0, j 1, j 2, eq_ix3 j⟩
  obtain rfl : z = 0 := Subsingleton.elim _ _
  rw [View.read_apply]
  show (outsAt0 m c t.val t.isLt : Vec Ideal S1x3x128 .f32) (ix3 (0 : Fin 1) s n)
    = accArr (xarr m c) (yarr m c) (((cfg0.win 2).blk t).view.emb (ix3 (0 : Fin 1) s n))
  rw [outsAt_apply m c s n t.val t.isLt, emb_out, accArr_apply, h7]

/-- An index of the array is in point `t`'s block iff each coordinate is in the block's range on its axis. -/
theorem mem_blk (t : Fin cfg0.N) (i : S32x3x128.Idx) :
    i ∈ ((cfg0.win 2).blk t).view.set
      ↔ ∀ a : Fin 3, win0_2.index t a * S1x3x128.size a ≤ (i a).val
          ∧ (i a).val < win0_2.index t a * S1x3x128.size a + S1x3x128.size a := by
  show i ∈ ((View.whole main_v0).slice (win0_2.rect t)).set ↔ _
  rw [View.set_slice_whole, Rect.mem_set_unit]
  exact Iff.rfl

/-- Every entry of the array is in the block of its item's eighth tile, which is written back. -/
theorem cover (i : S32x3x128.Idx) :
    ∃ t : Fin cfg0.N, (cfg0.win 2).flush t = true ∧ i ∈ ((cfg0.win 2).blk t).view.set := by
  have h0 : (i 0).val < 32 := (i 0).isLt
  have h1 : (i 1).val < 3 := (i 1).isLt
  have h2 : (i 2).val < 128 := (i 2).isLt
  have hN : cfg0.N = 256 := N_0
  let t : Fin cfg0.N := ⟨(i 0).val * 8 + 7, by omega⟩
  have ht : t.val = (i 0).val * 8 + 7 := rfl
  have hi := idx_facts t
  refine ⟨t, (flush0_2 t).mpr (by omega), ?_⟩
  rw [mem_blk]
  intro a
  match a with
  | ⟨0, _⟩ =>
    show win0_2.index t 0 * 1 ≤ (i 0).val ∧ (i 0).val < win0_2.index t 0 * 1 + 1
    rw [hi.2.2.2.2.2.2.2.1]; omega
  | ⟨1, _⟩ =>
    show win0_2.index t 1 * 3 ≤ (i 1).val ∧ (i 1).val < win0_2.index t 1 * 3 + 3
    rw [hi.2.2.2.2.2.2.2.2.1]; omega
  | ⟨2, _⟩ =>
    show win0_2.index t 2 * 128 ≤ (i 2).val ∧ (i 2).val < win0_2.index t 2 * 128 + 128
    rw [hi.2.2.2.2.2.2.2.2.2]; omega

/-- The result array after the region. -/
theorem final (c : Dev nD) : (dats m 0 c).arrAt 2 cfg0.N = accArr (xarr m c) (yarr m c) :=
  (dats m 0 c).arrAt_eq_of_cover 2 (accArr (xarr m c) (yarr m c)) (flushed_eq m c) cover

/-- The operations after the region, run from any buffer contents `W`: the scalar they leave is the tail function
    of what `W` holds in the region's result array. -/
theorem after_tail (W : Valuation τ sig (Elt Ideal)) :
    StableHlo.after (hostOps1 (F := Ideal)) W (Proc.devRef .tc main_v19)
      = KTail.ktail (W (Proc.devRef .tc main_v0)) := by
  after_results
  rfl

/-- After the region and the operations that follow it, the scalar is the tail function of the result array. -/
theorem tail_eq (c : Dev nD) :
    Pipeline.afterTail₀ cfgs (dats m) 0 (V0 m) [hostOps1] c main_v19
      = KTail.ktail (accArr (xarr m c) (yarr m c)) := by
  unfold Pipeline.afterTail₀
  show StableHlo.after hostOps1 _ (Proc.devRef .tc main_v19) = _
  rw [after_tail]
  exact congrArg KTail.ktail ((Pipeline.withArrays_arr spec0 launch0.win.arr_inj c _ _ 2).trans (final m c))

/-- A bin's total over the batch of the items' totals is the bin's total over all pixels: the float zero the
    host sum starts from is the real zero, and the 512 rows of an item are its 8 tiles of 64. -/
theorem binSum_acc (x : SX.Idx → EReal) (y : SY.Idx → BitVec 32) (s : Fin 3) :
    KTail.binSum (accArr x y) s = histVec x y s := by
  funext i
  show Ideal.ofBits .f32 0x00000000#32
      + ∑ b : Fin 32, accArr x y (ix3 b s (⟨(i 0).val, by have h : (i 0).val < 35 := (i 0).isLt; omega⟩ : Fin 128))
    = hist x y s (i 0)
  rw [Ideal.ofBits_zero_f32, zero_add]
  unfold hist
  refine Finset.sum_congr rfl fun b _ => ?_
  rw [accArr_apply, upTo_seven, sum_rows_tiles]
  rfl

/-- The scalar as the specification's function of the argument arrays. -/
theorem kresult (c : Dev nD) :
    KTail.ktail (accArr (xarr m c) (yarr m c))
      = Hist.result Facts₀.bcast_S_S35 Facts₀.reducesTo_S35_S_d0 Facts₀.h_S_
          (m ((c.tc : Thread nD τ).loc main_arg0)) (m ((c.tc : Thread nD τ).loc main_arg1)) := by
  rw [KTail.ktail_eq, binSum_acc, binSum_acc, binSum_acc]
  rfl

/-- The result buffer is no array of the region and is not scoped. -/
theorem v19_rest : main_v19 ∈ Pipeline.restRefs sig (cfgs 0).spec :=
  Pipeline.mem_restRefs_of main_v19 rfl (fun w => by fin_cases w <;> decide)

/-- The run, read: every execution ends with the result at the specification's function of the argument arrays,
    which end unchanged. -/
theorem run : θ_run defs (onTc (τ := τ) (main (F := Ideal))) ⟨m, fun _ => 0, ρ⟩ fun r => ∀ c : Dev nD,
      r.2.mem ((c.tc : Thread nD τ).loc main_v19)
        = Hist.result Facts₀.bcast_S_S35 Facts₀.reducesTo_S35_S_d0 Facts₀.h_S_
            (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
      ⟨((h c).2 main_v19 v19_rest).trans ((tail_eq m c).trans (kresult m c)),
        ((h c).1 0).trans (((dats m 0 c).arrAt_in 0 rfl _).trans ((A_eq m c 0).trans (V_main_arg0 m c))),
        ((h c).1 1).trans (((dats m 0 c).arrAt_in 1 rfl _).trans ((A_eq m c 1).trans (V_main_arg1 m c)))⟩)
    (run_main m ρ)

end Cert.Hist.KValue

end
-- ==== Proof.LibRows.lean ====
/-
  General lemmas: jnp's row take `x[idx, :]` and row accumulation `zeros.at[idx].add(u)` read at an index.

  `Host.gather` with offset_dims [1], collapsed_slice_dims [0], start_index_map [0], index_vector_dim 1 and
  slice sizes [1, C], over an operand [N, C] and start indices [K, 1], reads at (k, c) the operand's row
  idx[k, 0] (read signed, clamped into [0, N − 1]) at column c.
  The host's float scatter with an add body at the ideal values (`Ideal.hostScatterAdd`), with
  inserted_window_dims [0], scatter_dims_to_operand_dims [0], index_vector_dim 1 over indices [K, 1]:
  into a vector [N] from updates [K] (no window axis), and into an array [N, C] from updates [K, C]
  (update_window_dims [1]): entry i (resp. (i, c)) is the operand's plus the sum of the updates k
  (resp. (k, c)) whose index word idx[k, 0], read signed, is i.
-/
import Idealize.ShloMosaic.PureOps.Ideal
import Idealize.ShloMosaic.Lib.ValueIdx
import Idealize.ShloMosaic.Lib.ValueIdxRank1

noncomputable section

open scoped BigOperators

namespace Cert.Lib.Rows

open Idealize.ShloMosaic Idealize.ShloMosaic.ValueIdx

/-- The dimension numbers of a row take: operand [N, C], start indices [K, 1], result [K, C]. -/
abbrev gatherDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- THE ROW TAKE READ AT (k, c): the operand at row idx[k, 0], read signed and clamped into [0, N − 1], column c. -/
theorem gather_rows_apply {α : Type} {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (k : Fin K) (c : Fin C) :
    Host.gather (gatherDims N C K wf) x idx (ix2 k c)
      = x (ix2 ⟨min (idx (ix2 k (0 : Fin 1))).toInt.toNat (N - 1), by omega⟩ c) := by
  unfold Host.gather
  congr 1
  funext a
  refine Fin.ext ?_
  match a with
  | ⟨0, _⟩ =>
    -- the collapsed axis: the clamped start index, no batching and no offset coordinate
    show (gatherDims N C K wf).start (ix2 k c) idx 0 + (gatherDims N C K wf).batchCoord (ix2 k c) 0
      + (gatherDims N C K wf).offCoord (ix2 k c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (gatherDims N C K wf).startIndexMap from List.mem_singleton.mpr rfl)]
    have hsi : (gatherDims N C K wf).siIdx (ix2 k c) ⟨List.idxOf (0 : Fin 2) (gatherDims N C K wf).startIndexMap,
        List.idxOf_lt_length_iff.2 (List.mem_singleton.mpr rfl)⟩ = ix2 k (0 : Fin 1) := by
      funext b; refine Fin.ext ?_
      match b with
      | ⟨0, _⟩ => rfl
      | ⟨1, _⟩ => rfl
    rw [hsi]
    rfl
  | ⟨1, _⟩ =>
    -- the offset axis: start 0, no batching coordinate, the result's column
    show (gatherDims N C K wf).start (ix2 k c) idx 1 + (gatherDims N C K wf).batchCoord (ix2 k c) 1
      + (gatherDims N C K wf).offCoord (ix2 k c) 1 = c.val
    rw [GatherDims.batchCoord_eq_zero _ _ _ List.not_mem_nil]
    have hst : (gatherDims N C K wf).start (ix2 k c) idx 1 = 0 := by
      unfold GatherDims.start
      rw [dif_neg (show (1 : Fin 2) ∉ (gatherDims N C K wf).startIndexMap from by
        intro h; exact Nat.one_ne_zero (congrArg Fin.val (List.mem_singleton.mp h)))]
    have hoff : (gatherDims N C K wf).offCoord (ix2 k c) 1 = c.val := by
      unfold GatherDims.offCoord
      rw [dif_pos (show (1 : Fin 2) ∈ (gatherDims N C K wf).sKept from
        (GatherDims.mem_sKept _ _).mpr ⟨fun h => Nat.one_ne_zero (congrArg Fin.val (List.mem_singleton.mp h)), List.not_mem_nil⟩)]
      rfl
    rw [hst, hoff]; simp

/-- An update lands at `i` exactly when, on every axis, its start plus its window coordinate is `i`'s coordinate,
    as integers (which forces the landing index into range on that axis). -/
private theorem resultIdx?_eq_some_iff {s si u : Shape} (d : ScatterDims s si u) {w : Nat} (j : u.Idx)
    (idx : IVec si w) (i : s.Idx) :
    d.resultIdx? j idx = some i ↔ ∀ a, d.start j idx a + (d.window j a : Int) = ((i a).val : Int) := by
  unfold ScatterDims.resultIdx?
  constructor
  · intro h a
    split at h
    · rename_i hr
      have hv : (d.start j idx a + (d.window j a : Int)).toNat = (i a).val :=
        congrArg Fin.val (congrFun (Option.some.inj h) a)
      have := (hr a).1
      omega
    · exact absurd h (by simp)
  · intro h
    have hr : ∀ a, 0 ≤ d.start j idx a + (d.window j a : Int) ∧ d.start j idx a + (d.window j a : Int) < s.size a := by
      intro a
      have := h a
      have := (i a).isLt
      omega
    rw [dif_pos hr]
    congr 1
    funext a
    refine Fin.ext ?_
    show (d.start j idx a + (d.window j a : Int)).toNat = (i a).val
    have := h a
    omega

/-- A sum over a rank-1 index set is the sum over the coordinate. -/
private theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The dimension numbers of an accumulation into a vector [N] from updates [K] at indices [K, 1]. -/
abbrev scatterVecDims (N K : Nat)
    (wf : ScatterDims.WF ⟨1, ![N]⟩ ⟨2, ![K, 1]⟩ ⟨1, ![K]⟩ [] [0] [0] 1) :
    ScatterDims ⟨1, ![N]⟩ ⟨2, ![K, 1]⟩ ⟨1, ![K]⟩ where
  updateWindowDims := []
  insertedWindowDims := [0]
  scatterDimsToOperandDims := [0]
  indexVectorDim := 1
  wf := wf

/-- On the vector's one axis the start of update k is its index word idx[k, 0], read signed. -/
private theorem vec_start {N K w : Nat}
    (wf : ScatterDims.WF ⟨1, ![N]⟩ ⟨2, ![K, 1]⟩ ⟨1, ![K]⟩ [] [0] [0] 1)
    (idx : IVec ⟨2, ![K, 1]⟩ w) (k : Fin K) :
    (scatterVecDims N K wf).start (ix1 k) idx (0 : Fin 1) = (idx (ix2 k (0 : Fin 1))).toInt := by
  unfold ScatterDims.start
  rw [dif_pos (show (0 : Fin 1) ∈ (scatterVecDims N K wf).scatterDimsToOperandDims from List.mem_singleton.mpr rfl)]
  have hsi : (scatterVecDims N K wf).siIdx (ix1 k)
      ⟨List.idxOf (0 : Fin 1) (scatterVecDims N K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The vector's one axis is an inserted window axis: no window coordinate. -/
private theorem vec_window {N K : Nat}
    (wf : ScatterDims.WF ⟨1, ![N]⟩ ⟨2, ![K, 1]⟩ ⟨1, ![K]⟩ [] [0] [0] 1) (k : Fin K) :
    (scatterVecDims N K wf).window (ix1 k) (0 : Fin 1) = 0 := rfl

/-- Update k lands at entry i exactly when its index word, read signed, is i. -/
private theorem vec_resultIdx? {N K w : Nat}
    (wf : ScatterDims.WF ⟨1, ![N]⟩ ⟨2, ![K, 1]⟩ ⟨1, ![K]⟩ [] [0] [0] 1)
    (idx : IVec ⟨2, ![K, 1]⟩ w) (k : Fin K) (i : Fin N) :
    (scatterVecDims N K wf).resultIdx? (ix1 k) idx = some (ix1 i)
      ↔ (idx (ix2 k (0 : Fin 1))).toInt = (i.val : Int) := by
  rw [resultIdx?_eq_some_iff]
  constructor
  · intro h
    have h0 := h (0 : Fin 1)
    rw [vec_start, vec_window] at h0
    simpa using h0
  · intro h a
    obtain rfl : a = (0 : Fin 1) := Subsingleton.elim _ _
    rw [vec_start, vec_window]
    simpa using h

/-- Entry i of the accumulated vector: the operand's plus the updates whose index word is i. -/
theorem hostScatterAdd_vec_apply {N K w : Nat}
    (wf : ScatterDims.WF ⟨1, ![N]⟩ ⟨2, ![K, 1]⟩ ⟨1, ![K]⟩ [] [0] [0] 1)
    (x : (⟨1, ![N]⟩ : Shape).Idx → EReal) (idx : IVec ⟨2, ![K, 1]⟩ w) (upd : (⟨1, ![K]⟩ : Shape).Idx → EReal) (i : Fin N) :
    Ideal.hostScatterAdd (scatterVecDims N K wf) x idx upd (ix1 i)
      = x (ix1 i) + ∑ k : Fin K, if (idx (ix2 k (0 : Fin 1))).toInt = (i.val : Int) then upd (ix1 k) else 0 := by
  unfold Ideal.hostScatterAdd
  refine congrArg (x (ix1 i) + ·) ?_
  rw [Finset.sum_filter, sum_idx1]
  refine Finset.sum_congr rfl fun k _ => ?_
  exact if_congr (vec_resultIdx? wf idx k i) rfl rfl

/-- The dimension numbers of an accumulation of rows into [N, C] from updates [K, C] at indices [K, 1]. -/
abbrev scatterRowsDims (N C K : Nat)
    (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ where
  updateWindowDims := [1]
  insertedWindowDims := [0]
  scatterDimsToOperandDims := [0]
  indexVectorDim := 1
  wf := wf

/-- On the row axis the start of update (k, c') is its index word idx[k, 0], read signed. -/
private theorem rows_start0 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (0 : Fin 2) = (idx (ix2 k (0 : Fin 1))).toInt := by
  unfold ScatterDims.start
  rw [dif_pos (show (0 : Fin 2) ∈ (scatterRowsDims N C K wf).scatterDimsToOperandDims from List.mem_singleton.mpr rfl)]
  have hsi : (scatterRowsDims N C K wf).siIdx (ix2 k c')
      ⟨List.idxOf (0 : Fin 2) (scatterRowsDims N C K wf).scatterDimsToOperandDims,
        List.idxOf_lt_length_iff.2 (List.mem_singleton.mpr rfl)⟩ = ix2 k (0 : Fin 1) := by
    funext b; refine Fin.ext ?_
    match b with
    | ⟨0, _⟩ => rfl
    | ⟨1, _⟩ => rfl
  rw [hsi]

/-- The column axis is not named by the index map: its start is 0. -/
private theorem rows_start1 {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) :
    (scatterRowsDims N C K wf).start (ix2 k c') idx (1 : Fin 2) = 0 := by
  unfold ScatterDims.start
  rw [dif_neg (show (1 : Fin 2) ∉ (scatterRowsDims N C K wf).scatterDimsToOperandDims from fun h =>
    Nat.one_ne_zero (congrArg Fin.val (List.mem_singleton.mp h)))]

/-- The row axis is an inserted window axis: no window coordinate. -/
private theorem rows_window0 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (0 : Fin 2) = 0 := rfl

/-- The column axis carries the update's window axis: the window coordinate is the update's column. -/
private theorem rows_window1 {N C K : Nat}
    (wf : ScatterDims.WF ⟨2, ![N, C]⟩ ⟨2, ![K, 1]⟩ ⟨2, ![K, C]⟩ [1] [0] [0] 1) (k : Fin K) (c' : Fin C) :
    (scatterRowsDims N C K wf).window (ix2 k c') (1 : Fin 2) = c'.val := rfl

/-- Update (k, c') lands at entry (i, c) exactly when its index word, read signed, is i and its column is c. -/
private theorem rows_resultIdx? {N C K w : Nat}
    (wf : ScatterDims.WF ⟨2, ![N, C]⟩ ⟨2, ![K, 1]⟩ ⟨2, ![K, C]⟩ [1] [0] [0] 1)
    (idx : IVec ⟨2, ![K, 1]⟩ w) (k : Fin K) (c' : Fin C) (i : Fin N) (c : Fin C) :
    (scatterRowsDims N C K wf).resultIdx? (ix2 k c') idx = some (ix2 i c)
      ↔ (idx (ix2 k (0 : Fin 1))).toInt = (i.val : Int) ∧ c' = c := by
  rw [resultIdx?_eq_some_iff]
  constructor
  · intro h
    have h0 := h (0 : Fin 2)
    have h1 := h (1 : Fin 2)
    rw [rows_start0, rows_window0] at h0
    rw [rows_start1, rows_window1] at h1
    have h0' : (idx (ix2 k (0 : Fin 1))).toInt + ((0 : Nat) : Int) = (i.val : Int) := h0
    have h1' : (0 : Int) + (c'.val : Int) = (c.val : Int) := h1
    exact ⟨by omega, Fin.ext (by omega)⟩
  · rintro ⟨h, rfl⟩ a
    match a with
    | ⟨0, _⟩ =>
      show (scatterRowsDims N C K wf).start (ix2 k c') idx (0 : Fin 2)
        + ((scatterRowsDims N C K wf).window (ix2 k c') (0 : Fin 2) : Int) = (i.val : Int)
      rw [rows_start0, rows_window0]
      omega
    | ⟨1, _⟩ =>
      show (scatterRowsDims N C K wf).start (ix2 k c') idx (1 : Fin 2)
        + ((scatterRowsDims N C K wf).window (ix2 k c') (1 : Fin 2) : Int) = (c'.val : Int)
      rw [rows_start1, rows_window1]
      omega

/-- Entry (i, c) of the accumulated array: the operand's plus the updates (k, c) whose index word is i. -/
theorem hostScatterAdd_rows_apply {N C K w : Nat}
    (wf : ScatterDims.WF ⟨2, ![N, C]⟩ ⟨2, ![K, 1]⟩ ⟨2, ![K, C]⟩ [1] [0] [0] 1)
    (x : (⟨2, ![N, C]⟩ : Shape).Idx → EReal) (idx : IVec ⟨2, ![K, 1]⟩ w) (upd : (⟨2, ![K, C]⟩ : Shape).Idx → EReal)
    (i : Fin N) (c : Fin C) :
    Ideal.hostScatterAdd (scatterRowsDims N C K wf) x idx upd (ix2 i c)
      = x (ix2 i c) + ∑ k : Fin K, if (idx (ix2 k (0 : Fin 1))).toInt = (i.val : Int) then upd (ix2 k c) else 0 := by
  unfold Ideal.hostScatterAdd
  refine congrArg (x (ix2 i c) + ·) ?_
  rw [Finset.sum_filter, sum_idx2]
  refine Finset.sum_congr rfl fun k _ => ?_
  simp only [rows_resultIdx?]
  by_cases h : (idx (ix2 k (0 : Fin 1))).toInt = (i.val : Int)
  · -- the row matches: of the columns only c' = c survives
    simp only [h, true_and, if_true]
    rw [Finset.sum_ite_eq' Finset.univ c (fun c' => upd (ix2 k c'))]
    simp
  · -- the row does not match: every term is 0
    simp only [h, false_and, if_false]
    exact Finset.sum_const_zero

end Cert.Lib.Rows

end
-- ==== Proof.RefValue.lean ====
/-
  The reference at the ideal values: its result is the specification's function of the argument arrays.
-/
import proofs.«427520_j62294205661754_3_alg».proof.Proof.Gen.ReferenceIdeal.Read
import proofs.«427520_j62294205661754_3_alg».proof.Proof.Spec
import proofs.«427520_j62294205661754_3_alg».proof.Proof.LibRows
import Idealize.ShloMosaic.Lib.ValueIdx
import Idealize.ShloMosaic.Lib.Pipeline.Value
import Idealize.ShloMosaic.PureOps.Ideal.Laws

noncomputable section

open scoped BigOperators

namespace Cert.Hist.Ref

open Idealize.ShloMosaic Idealize.ShloMosaic.ValueIdx Cert.ReferenceIdeal Cert.ReferenceIdeal.Gen Cert.Hist
open Cert.ReferenceIdeal.Facts₀

/-- A 32-bit word read signed is n (n < 35) exactly when it is the word of n. -/
private theorem toInt_eq_iff (w : BitVec 32) (n : Nat) (hn : n < 35) :
    w.toInt = (n : Int) ↔ w = BitVec.ofNat 32 n := by
  constructor
  · intro h
    apply BitVec.eq_of_toNat_eq
    rw [BitVec.toNat_ofNat]
    have hc := BitVec.toInt_eq_toNat_cond w
    have hw : w.toNat < 2 ^ 32 := w.isLt
    split at hc <;> omega
  · rintro rfl
    rw [BitVec.toInt_eq_toNat_cond, BitVec.toNat_ofNat]
    have : n % 2 ^ 32 = n := Nat.mod_eq_of_lt (by omega)
    rw [this, if_pos (by omega)]

/-- The flat pixel index p < 32·512·512 runs over the triples (b, r, k) once each, at
    b = p / 512², r = p / 512 mod 512, k = p mod 512 (p = (b·512 + r)·512 + k). -/
private def pixEquiv : Fin 8388608 ≃ Fin 32 × Fin 512 × Fin 512 where
  toFun p := (⟨p.val / 262144, by have := p.isLt; omega⟩, ⟨p.val / 512 % 512, by omega⟩, ⟨p.val % 512, by omega⟩)
  invFun t := ⟨(t.1.val * 512 + t.2.1.val) * 512 + t.2.2.val, by
    have := t.1.isLt; have := t.2.1.isLt; have := t.2.2.isLt; omega⟩
  left_inv p := by
    refine Fin.ext ?_
    have := p.isLt
    show (p.val / 262144 * 512 + p.val / 512 % 512) * 512 + p.val % 512 = p.val
    omega
  right_inv t := by
    obtain ⟨b, r, k⟩ := t
    have := b.isLt; have := r.isLt; have := k.isLt
    refine Prod.ext (Fin.ext ?_) (Prod.ext (Fin.ext ?_) (Fin.ext ?_))
    · show ((b.val * 512 + r.val) * 512 + k.val) / 262144 = b.val
      omega
    · show ((b.val * 512 + r.val) * 512 + k.val) / 512 % 512 = r.val
      omega
    · show ((b.val * 512 + r.val) * 512 + k.val) % 512 = k.val
      omega

/-- A sum over the flat pixel index is the sum over batch, row and column. -/
private theorem sum_pixels {M : Type*} [AddCommMonoid M] (g : Fin 32 → Fin 512 → Fin 512 → M) :
    ∑ p : Fin 8388608, g ⟨p.val / 262144, by have := p.isLt; omega⟩ ⟨p.val / 512 % 512, by omega⟩ ⟨p.val % 512, by omega⟩
      = ∑ b : Fin 32, ∑ r : Fin 512, ∑ k : Fin 512, g b r k := by
  have h1 : ∑ p : Fin 8388608, g ⟨p.val / 262144, by have := p.isLt; omega⟩ ⟨p.val / 512 % 512, by omega⟩ ⟨p.val % 512, by omega⟩
      = ∑ t : Fin 32 × Fin 512 × Fin 512, g t.1 t.2.1 t.2.2 :=
    Fintype.sum_equiv pixEquiv _ (fun t : Fin 32 × Fin 512 × Fin 512 => g t.1 t.2.1 t.2.2) (fun p => rfl)
  rw [h1, Fintype.sum_prod_type]
  refine Finset.sum_congr rfl fun b _ => ?_
  rw [Fintype.sum_prod_type]

/-- The pixel (b, r, k) of the flat index p. -/
private abbrev pix (p : Fin 8388608) : S32x512x512.Idx :=
  ix3 (⟨p.val / 262144, by have := p.isLt; omega⟩ : Fin 32) (⟨p.val / 512 % 512, by omega⟩ : Fin 512) (⟨p.val % 512, by omega⟩ : Fin 512)

/-- The accumulation of the reference read at bin n: with a zero operand, the label words read through the
    flattening, and updates that are a function g of the pixel, entry n is the sum of g over the pixels labelled n. -/
private theorem scatter_read (x1 : S32x512x512.Idx → BitVec 32) (z : FVec Ideal S35 .f32) (hz : ∀ i, z i = 0)
    (idxv : IVec S8388608x1 32) (hidx : ∀ p : Fin 8388608, idxv (ix2 p (0 : Fin 1)) = x1 (pix p))
    (upd : FVec Ideal S8388608 .f32) (g : Fin 32 → Fin 512 → Fin 512 → EReal)
    (hupd : ∀ p : Fin 8388608, upd (ix1 p) = g ⟨p.val / 262144, by have := p.isLt; omega⟩ ⟨p.val / 512 % 512, by omega⟩ ⟨p.val % 512, by omega⟩)
    (n : Fin 35) :
    Host.scatterAdd (F := Ideal) scatter_S35_S8388608x1_S8388608_n_0_0_1 z idxv upd (ix1 n)
      = ∑ b : Fin 32, ∑ r : Fin 512, ∑ k : Fin 512,
          if x1 (ix3 b r k) = BitVec.ofNat 32 n.val then g b r k else 0 := by
  have h := Cert.Lib.Rows.hostScatterAdd_vec_apply (N := 35) (K := 8388608)
    Facts₀.scatter_S35_S8388608x1_S8388608_n_0_0_1_wf z idxv upd n
  refine Eq.trans (show Host.scatterAdd (F := Ideal) scatter_S35_S8388608x1_S8388608_n_0_0_1 z idxv upd (ix1 n)
    = Ideal.hostScatterAdd (Cert.Lib.Rows.scatterVecDims 35 8388608 Facts₀.scatter_S35_S8388608x1_S8388608_n_0_0_1_wf) z idxv upd (ix1 n) from rfl) ?_
  rw [h, hz, zero_add]
  rw [← sum_pixels (fun b r k => if x1 (ix3 b r k) = BitVec.ofNat 32 n.val then g b r k else 0)]
  refine Finset.sum_congr rfl fun p _ => ?_
  rw [hidx p, hupd p]
  exact if_congr (toInt_eq_iff _ n.val n.isLt) rfl rfl

open Cert.ReferenceIdeal.Read

/-- The flattened label words, read at the flat index p: the label of the pixel of p. -/
private theorem labels_read (x1 : (⟨S32x512x512, .i32⟩ : BufTy).Contents (Elt Ideal)) (p : Fin 8388608) :
    val_main_v6 (F := Ideal) x1 (ix2 p (0 : Fin 1)) = x1 (pix p) := by
  rw [val_main_v6_apply, val_main_v4_apply]
  exact congrArg x1 (funext fun a => match a with | ⟨0, _⟩ => rfl | ⟨1, _⟩ => rfl | ⟨2, _⟩ => rfl)

/-- The flattened channel means, read at the flat index p: the mean statistic of the pixel of p
    (the channel sum starts from the float zero, which adds nothing). -/
private theorem mean_read (x0 : (⟨S32x3x512x512, .f32⟩ : BufTy).Contents (Elt Ideal)) (p : Fin 8388608) :
    val_main_v3 (F := Ideal) x0 (ix1 p)
      = stat x0 0 ⟨p.val / 262144, by have := p.isLt; omega⟩ ⟨p.val / 512 % 512, by omega⟩ ⟨p.val % 512, by omega⟩ := by
  rw [val_main_v3_apply, val_main_v2_apply, val_main_v0_apply, val_main_v1_apply, val_main_cst_apply,
    val_main_cst_0_apply]
  show Ideal.div (Ideal.ofBits .f32 0x00000000#32 + ∑ c : Fin 3, x0 (idx_main_v0 (idx_main_v3 (ix1 p)) c))
    (Ideal.ofBits .f32 0x40400000#32) = _
  rw [Ideal.ofBits_zero_f32, zero_add]
  unfold stat
  rw [statOf_zero]
  unfold meanOf
  refine congrArg (fun t => Ideal.div t (Ideal.ofBits .f32 0x40400000#32)) (Finset.sum_congr rfl fun c _ => congrArg x0 ?_)
  funext a
  match a with
  | ⟨0, _⟩ => rfl
  | ⟨1, _⟩ => rfl
  | ⟨2, _⟩ => rfl
  | ⟨3, _⟩ => rfl

/-- The accumulations start from the zero vector. -/
private theorem zero_v5 (i : S35.Idx) : val_main_v5 (F := Ideal) i = 0 := by
  rw [val_main_v5_apply, val_main_cst_1_apply]; exact Ideal.ofBits_zero_f32
private theorem zero_v9 (i : S35.Idx) : val_main_v9 (F := Ideal) i = 0 := by
  rw [val_main_v9_apply, val_main_cst_3_apply]; exact Ideal.ofBits_zero_f32
private theorem zero_v13 (i : S35.Idx) : val_main_v13 (F := Ideal) i = 0 := by
  rw [val_main_v13_apply, val_main_cst_4_apply]; exact Ideal.ofBits_zero_f32

/-- The bins' sums: the accumulation of the means. -/
private theorem ref_sums (x0 : (⟨S32x3x512x512, .f32⟩ : BufTy).Contents (Elt Ideal))
    (x1 : (⟨S32x512x512, .i32⟩ : BufTy).Contents (Elt Ideal)) :
    val_main_v7 (F := Ideal) x0 x1 = histVec x0 x1 0 := by
  funext i
  obtain ⟨n, rfl⟩ : ∃ n : Fin 35, i = ix1 n := ⟨i 0, eq_ix1 i⟩
  exact scatter_read x1 _ zero_v5 _ (labels_read x1) _ (fun b r k => stat x0 0 b r k) (mean_read x0) n

/-- The bins' counts: the accumulation of the float 1. -/
private theorem ref_counts (x0 : (⟨S32x3x512x512, .f32⟩ : BufTy).Contents (Elt Ideal))
    (x1 : (⟨S32x512x512, .i32⟩ : BufTy).Contents (Elt Ideal)) :
    val_main_v11 (F := Ideal) x1 = histVec x0 x1 1 := by
  funext i
  obtain ⟨n, rfl⟩ : ∃ n : Fin 35, i = ix1 n := ⟨i 0, eq_ix1 i⟩
  refine scatter_read x1 _ zero_v9 _ (labels_read x1) _ (fun b r k => stat x0 1 b r k) (fun p => ?_) n
  rw [val_main_v8_apply, val_main_cst_2_apply]
  rfl

/-- The bins' sums of squares: the accumulation of the means' squares. -/
private theorem ref_squares (x0 : (⟨S32x3x512x512, .f32⟩ : BufTy).Contents (Elt Ideal))
    (x1 : (⟨S32x512x512, .i32⟩ : BufTy).Contents (Elt Ideal)) :
    val_main_v15 (F := Ideal) x0 x1 = histVec x0 x1 2 := by
  funext i
  obtain ⟨n, rfl⟩ : ∃ n : Fin 35, i = ix1 n := ⟨i 0, eq_ix1 i⟩
  refine scatter_read x1 _ zero_v13 _ (labels_read x1) _ (fun b r k => stat x0 2 b r k) (fun p => ?_) n
  rw [val_main_v12_apply, mean_read]
  rfl

/-- The reference's last stage is the specification's result. -/
theorem ref_result (x0 : (⟨S32x3x512x512, .f32⟩ : BufTy).Contents (Elt Ideal))
    (x1 : (⟨S32x512x512, .i32⟩ : BufTy).Contents (Elt Ideal)) :
    Cert.ReferenceIdeal.Read.val_main_v27 (F := Ideal) x0 x1
      = Cert.Hist.result Facts₀.bcast_S_S35 Facts₀.reducesTo_S35_S_d0 Facts₀.h_S_ x0 x1 := by
  have h7 := ref_sums x0 x1
  have h11 := ref_counts x0 x1
  have h15 := ref_squares x0 x1
  show Cert.Hist.tail Facts₀.bcast_S_S35 Facts₀.reducesTo_S35_S_d0 Facts₀.h_S_
    (val_main_v7 (F := Ideal) x0 x1) (val_main_v11 (F := Ideal) x1) (val_main_v15 (F := Ideal) x0 x1) = _
  rw [h7, h11, h15]
  rfl

end Cert.Hist.Ref

end
-- ==== Proof.lean ====
/-
  The kernel computes, for an image batch x : [32, 3, 512, 512] and a label map y : [32, 512, 512], the per-bin
  sum, count and sum of squares of the pixels' channel means over 35 bins, and from them one scalar; the reference
  computes the same three vectors by three accumulating scatters over the flattened pixels and the same scalar.

  Kernel: per grid point (batch item b, tile h of 64 rows) a batched matrix product of the stacked statistics
  [μ, 1, μ²] with the one-hot of the labels over 128 lanes, summed over the tile's rows, accumulated over the 8
  tiles of the item in the item's output block (reset at the first tile); then, on the host, the sum over the 32
  items, the three rows cut to 35 lanes, and the scalar expression. Read at the ideal values every one of these is
  an exact sum over the extended reals: the product with a one-hot entry is the term or 0, the sums regroup freely
  (batch × tiles × rows × columns against all flattened pixels), and a label outside 0 … 34 contributes to no bin
  on either side (the kernel's lanes 35 … 127 are cut off, the scatter drops an index outside its operand). Both
  programs divide by the same float 3 and apply the same scalar expression with the same constants, so nothing of
  the precondition is used.

  Modules: Spec (the common quantity), Payload (the body's arithmetic at an index), Pieces (what one body run
  leaves), Accum (the output block after each point), KTail (the host operations after the region), KValue (the
  kernel's result), LibRows (an accumulating scatter read at an index), RefValue (the reference's result).
-/
import proofs.«427520_j62294205661754_3_alg».proof.Defs
import proofs.«427520_j62294205661754_3_alg».proof.Proof.Gen.Kernel
import proofs.«427520_j62294205661754_3_alg».proof.Proof.Gen.Kernel.Frame
import proofs.«427520_j62294205661754_3_alg».proof.Proof.Gen.KernelIdeal
import proofs.«427520_j62294205661754_3_alg».proof.Proof.Gen.KernelIdeal.Frame
import proofs.«427520_j62294205661754_3_alg».proof.Proof.Gen.ReferenceIdeal
import proofs.«427520_j62294205661754_3_alg».proof.Proof.Gen.Pre_finite_inputs
import proofs.«427520_j62294205661754_3_alg».proof.Proof.Gen.ReferenceIdeal.Run
import proofs.«427520_j62294205661754_3_alg».proof.Proof.Gen.ReferenceIdeal.Read
import proofs.«427520_j62294205661754_3_alg».proof.Proof.KValue
import proofs.«427520_j62294205661754_3_alg».proof.Proof.RefValue
import Idealize.ShloMosaic.Adequacy
import Idealize.ShloMosaic.Init

noncomputable section

namespace Cert.Proof

open Idealize.ShloMosaic Idealize.SL.Sem

/-- The word-level kernel runs and keeps its arguments. -/
theorem frame_k : Cert.frame_Kernel := fun m ρ _ => Cert.Kernel.Gen.frame m ρ

/-- So does the kernel at the ideal values. -/
theorem frame_ki : Cert.frame_KernelIdeal := fun m ρ _ => Cert.KernelIdeal.Gen.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end at the specification's scalar of arguments that agree. -/
theorem algebraic : Cert.algebraic_KernelIdeal_ReferenceIdeal := by
  intro m ρ m' ρ' _ hagree
  refine ⟨_, Cert.Hist.KValue.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v27_eq (F := Ideal) _ _).trans ?_
  refine (Cert.Hist.Ref.ref_result _ _).trans ?_
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
